-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x4 : Shape := ⟨3, ![8, 10000, 4]⟩
abbrev S320000 : Shape := ⟨1, ![320000]⟩
abbrev S4x320000x16 : Shape := ⟨3, ![4, 320000, 16]⟩
abbrev S_ : Shape := ⟨0, ![]⟩

class Facts : Prop where
  bcast_S_S8x10000x4 : S_.BroadcastsInDim S8x10000x4 (![] : Fin 0 → Fin S8x10000x4.rank)
  reducesTo_S8x10000x4_S_d0_1_2 : S8x10000x4.ReducesTo [0, 1, 2] S_
  h_S_ : 0 < S_.numel
  bcast_S_S4x320000x16 : S_.BroadcastsInDim S4x320000x16 (![] : Fin 0 → Fin S4x320000x16.rank)
  reducesTo_S4x320000x16_S_d0_1_2 : S4x320000x16.ReducesTo [0, 1, 2] S_
  bcast_S_S320000 : S_.BroadcastsInDim S320000 (![] : Fin 0 → Fin S320000.rank)
  reducesTo_S320000_S_d0 : S320000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x10000x4 .f32) (main_arg1 : IVec S320000 32) (main_arg2 : FVec F S4x320000x16 .f32) : IVec S_ 1 :=
  let main_v0 : FVec F S8x10000x4 .f32 := Host.absf main_arg0
  let main_cst : FVec F S_ .f32 := constant S_ .f32 0x7F800000#32
  let main_v1 : FVec F S8x10000x4 .f32 := broadcastInDim S8x10000x4 ![] bcast_S_S8x10000x4 main_cst
  let main_v2 : IVec S8x10000x4 1 := cmpf .olt main_v0 main_v1
  let main_c : IVec S_ 1 := constantI S_ 1 1#1
  let main_v3 : IVec S_ 1 := (fun x v => Host.reduce IntOp.andi x v reducesTo_S8x10000x4_S_d0_1_2 h_S_) main_v2 main_c
  let main_v4 : FVec F S4x320000x16 .f32 := Host.absf main_arg2
  let main_cst_0 : FVec F S_ .f32 := constant S_ .f32 0x7F800000#32
  let main_v5 : FVec F S4x320000x16 .f32 := broadcastInDim S4x320000x16 ![] bcast_S_S4x320000x16 main_cst_0
  let main_v6 : IVec S4x320000x16 1 := cmpf .olt main_v4 main_v5
  let main_c_1 : IVec S_ 1 := constantI S_ 1 1#1
  let main_v7 : IVec S_ 1 := (fun x v => Host.reduce IntOp.andi x v reducesTo_S4x320000x16_S_d0_1_2 h_S_) main_v6 main_c_1
  let main_v8 : IVec S_ 1 := andi main_v3 main_v7
  let main_c_2 : IVec S_ 32 := constantI S_ 32 4294957295#32
  let main_v9 : IVec S320000 32 := broadcastInDim S320000 ![] bcast_S_S320000 main_c_2
  let main_v10 : IVec S320000 1 := cmpi .sge main_arg1 main_v9
  let main_c_3 : IVec S_ 1 := constantI S_ 1 1#1
  let main_v11 : IVec S_ 1 := (fun x v => Host.reduce IntOp.andi x v reducesTo_S320000_S_d0 h_S_) main_v10 main_c_3
  let main_v12 : IVec S_ 1 := andi main_v8 main_v11
  let main_c_4 : IVec S_ 32 := constantI S_ 32 10000#32
  let main_v13 : IVec S320000 32 := broadcastInDim S320000 ![] bcast_S_S320000 main_c_4
  let main_v14 : IVec S320000 1 := cmpi .sle main_arg1 main_v13
  let main_c_5 : IVec S_ 1 := constantI S_ 1 1#1
  let main_v15 : IVec S_ 1 := (fun x v => Host.reduce IntOp.andi x v reducesTo_S320000_S_d0 h_S_) main_v14 main_c_5
  fn_part1 (F := F) main_v12 main_v15
-- ==== Kernel.lean ====
abbrev S8x10000x4 : Shape := ⟨3, ![8, 10000, 4]⟩
abbrev S320000 : Shape := ⟨1, ![320000]⟩
abbrev S4x320000x16 : Shape := ⟨3, ![4, 320000, 16]⟩
abbrev S_ : Shape := ⟨0, ![]⟩
abbrev S8x1x4 : Shape := ⟨3, ![8, 1, 4]⟩
abbrev S8x10001x4 : Shape := ⟨3, ![8, 10001, 4]⟩
abbrev S4x8x10001 : Shape := ⟨3, ![4, 8, 10001]⟩
abbrev S320000x1 : Shape := ⟨2, ![320000, 1]⟩
abbrev S1 : Shape := ⟨1, ![1]⟩
abbrev S1x1 : Shape := ⟨2, ![1, 1]⟩
abbrev S4x8x320000 : Shape := ⟨3, ![4, 8, 320000]⟩
abbrev S4x8x625x32x16 : Shape := ⟨5, ![4, 8, 625, 32, 16]⟩
abbrev S4x16x625x32x16 : Shape := ⟨5, ![4, 16, 625, 32, 16]⟩
abbrev S8x625x16x16 : Shape := ⟨4, ![8, 625, 16, 16]⟩
abbrev S4x8x5x32x16 : Shape := ⟨5, ![4, 8, 5, 32, 16]⟩
abbrev S4x16x5x32x16 : Shape := ⟨5, ![4, 16, 5, 32, 16]⟩
abbrev S8x5x16x16 : Shape := ⟨4, ![8, 5, 16, 16]⟩
abbrev S16x8x5x16 : Shape := ⟨4, ![16, 8, 5, 16]⟩
abbrev S1x8x5x32x16 : Shape := ⟨5, ![1, 8, 5, 32, 16]⟩
abbrev S8x5x32x16 : Shape := ⟨4, ![8, 5, 32, 16]⟩
abbrev S1x16x5x32x16 : Shape := ⟨5, ![1, 16, 5, 32, 16]⟩
abbrev S16x5x32x16 : Shape := ⟨4, ![16, 5, 32, 16]⟩
abbrev S16x1x5x32x16 : Shape := ⟨5, ![16, 1, 5, 32, 16]⟩
abbrev S16x8x5x32x16 : Shape := ⟨5, ![16, 8, 5, 32, 16]⟩
abbrev S8x16x625x16 : Shape := ⟨4, ![8, 16, 625, 16]⟩
abbrev S8x10000x16 : Shape := ⟨3, ![8, 10000, 16]⟩

abbrev nBuf : Space → Nat
  | .hbm => 35
  | .vmem => 6
  | .smem => 0
  | _ => 0

abbrev bufTy : (tb : Table) → Fin (tcTables nBuf tb) → BufTy
  | .hbm, ⟨0, _⟩ => ⟨S8x10000x4, .f32⟩
  | .hbm, ⟨1, _⟩ => ⟨S320000, .i32⟩
  | .hbm, ⟨2, _⟩ => ⟨S4x320000x16, .f32⟩
  | .hbm, ⟨3, _⟩ => ⟨S_, .f32⟩
  | .hbm, ⟨4, _⟩ => ⟨S8x1x4, .f32⟩
  | .hbm, ⟨5, _⟩ => ⟨S8x10001x4, .f32⟩
  | .hbm, ⟨6, _⟩ => ⟨S4x8x10001, .f32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S1, .i32⟩
  | .hbm, ⟨16, _⟩ => ⟨S_, .i32⟩
  | .hbm, ⟨17, _⟩ => ⟨S320000x1, .i32⟩
  | .hbm, ⟨18, _⟩ => ⟨S320000x1, .i1⟩
  | .hbm, ⟨19, _⟩ => ⟨S1x1, .i32⟩
  | .hbm, ⟨20, _⟩ => ⟨S320000x1, .i32⟩
  | .hbm, ⟨21, _⟩ => ⟨S320000x1, .i1⟩
  | .hbm, ⟨22, _⟩ => ⟨S320000x1, .i1⟩
  | .hbm, ⟨23, _⟩ => ⟨S_, .i1⟩
  | .hbm, ⟨24, _⟩ => ⟨S320000, .i1⟩
  | .hbm, ⟨25, _⟩ => ⟨S4x8x320000, .f32⟩
  | .hbm, ⟨26, _⟩ => ⟨S4x8x320000, .i1⟩
  | .hbm, ⟨27, _⟩ => ⟨S_, .f32⟩
  | .hbm, ⟨28, _⟩ => ⟨S4x8x320000, .f32⟩
  | .hbm, ⟨29, _⟩ => ⟨S4x8x320000, .f32⟩
  | .hbm, ⟨30, _⟩ => ⟨S4x8x625x32x16, .f32⟩
  | .hbm, ⟨31, _⟩ => ⟨S4x16x625x32x16, .f32⟩
  | .hbm, ⟨32, _⟩ => ⟨S8x625x16x16, .f32⟩
  | .hbm, ⟨33, _⟩ => ⟨S8x16x625x16, .f32⟩
  | .hbm, ⟨34, _⟩ => ⟨S8x10000x16, .f32⟩
  | .local _ .vmem, ⟨0, _⟩ => ⟨S4x8x5x32x16, .f32⟩
  | .local _ .vmem, ⟨1, _⟩ => ⟨S4x8x5x32x16, .f32⟩
  | .local _ .vmem, ⟨2, _⟩ => ⟨S4x16x5x32x16, .f32⟩
  | .local _ .vmem, ⟨3, _⟩ => ⟨S4x16x5x32x16, .f32⟩
  | .local _ .vmem, ⟨4, _⟩ => ⟨S8x5x16x16, .f32⟩
  | .local _ .vmem, ⟨5, _⟩ => ⟨S8x5x16x16, .f32⟩
  | _, _ => ⟨S8x10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x8x5x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x5x32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8x1x4 : S_.BroadcastsInDim S8x1x4 (![] : Fin 0 → Fin S8x1x4.rank)
  concatenates_S8x10000x4_S8x1x4_S8x10001x4_d1 : Shape.Concatenates [S8x10000x4, S8x1x4] S8x10001x4 1
  transposes_S8x10001x4_S4x8x10001_2_0_1 : S8x10001x4.Transposes [2, 0, 1] S4x8x10001
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S4x8x320000_2 : S320000.BroadcastsInDim S4x8x320000 (![2] : Fin 1 → Fin S4x8x320000.rank)
  bcast_S_S4x8x320000 : S_.BroadcastsInDim S4x8x320000 (![] : Fin 0 → Fin S4x8x320000.rank)
  shapeCasts_S4x8x320000_S4x8x625x32x16 : S4x8x320000.ShapeCasts S4x8x625x32x16
  shapeCasts_S4x320000x16_S4x16x625x32x16 : S4x320000x16.ShapeCasts S4x16x625x32x16
  inb_S4x8x5x32x16_S1x8x5x32x16_0_0_0_0_0 : ∀ a, (![0, 0, 0, 0, 0] : Fin 5 → Nat) a + S1x8x5x32x16.size a ≤ S4x8x5x32x16.size a
  h_S1x8x5x32x16 : 0 < S1x8x5x32x16.numel
  shapeCasts_S1x8x5x32x16_S8x5x32x16 : S1x8x5x32x16.ShapeCasts S8x5x32x16
  inb_S4x16x5x32x16_S1x16x5x32x16_0_0_0_0_0 : ∀ a, (![0, 0, 0, 0, 0] : Fin 5 → Nat) a + S1x16x5x32x16.size a ≤ S4x16x5x32x16.size a
  h_S1x16x5x32x16 : 0 < S1x16x5x32x16.numel
  shapeCasts_S1x16x5x32x16_S16x5x32x16 : S1x16x5x32x16.ShapeCasts S16x5x32x16
  shapeCasts_S16x5x32x16_S16x1x5x32x16 : S16x5x32x16.ShapeCasts S16x1x5x32x16
  shapeCasts_S8x5x32x16_S1x8x5x32x16 : S8x5x32x16.ShapeCasts S1x8x5x32x16
  broadcasts_S16x1x5x32x16_S16x8x5x32x16 : S16x1x5x32x16.Broadcasts S16x8x5x32x16
  broadcasts_S1x8x5x32x16_S16x8x5x32x16 : S1x8x5x32x16.Broadcasts S16x8x5x32x16
  reduces_S16x8x5x32x16_S16x8x5x16 : S16x8x5x32x16.Reduces [3] S16x8x5x16
  inb_S4x8x5x32x16_S1x8x5x32x16_1_0_0_0_0 : ∀ a, (![1, 0, 0, 0, 0] : Fin 5 → Nat) a + S1x8x5x32x16.size a ≤ S4x8x5x32x16.size a
  inb_S4x16x5x32x16_S1x16x5x32x16_1_0_0_0_0 : ∀ a, (![1, 0, 0, 0, 0] : Fin 5 → Nat) a + S1x16x5x32x16.size a ≤ S4x16x5x32x16.size a
  inb_S4x8x5x32x16_S1x8x5x32x16_2_0_0_0_0 : ∀ a, (![2, 0, 0, 0, 0] : Fin 5 → Nat) a + S1x8x5x32x16.size a ≤ S4x8x5x32x16.size a
  inb_S4x16x5x32x16_S1x16x5x32x16_2_0_0_0_0 : ∀ a, (![2, 0, 0, 0, 0] : Fin 5 → Nat) a + S1x16x5x32x16.size a ≤ S4x16x5x32x16.size a
  inb_S4x8x5x32x16_S1x8x5x32x16_3_0_0_0_0 : ∀ a, (![3, 0, 0, 0, 0] : Fin 5 → Nat) a + S1x8x5x32x16.size a ≤ S4x8x5x32x16.size a
  inb_S4x16x5x32x16_S1x16x5x32x16_3_0_0_0_0 : ∀ a, (![3, 0, 0, 0, 0] : Fin 5 → Nat) a + S1x16x5x32x16.size a ≤ S4x16x5x32x16.size a
  transposes_S16x8x5x16_p1_2_0_3_S8x5x16x16 : S16x8x5x16.Transposes [1, 2, 0, 3] S8x5x16x16
  inb_S8x5x16x16_S8x5x16x16_0_0_0_0 : ∀ a, (![0, 0, 0, 0] : Fin 4 → Nat) a + S8x5x16x16.size a ≤ S8x5x16x16.size a
  h_S8x5x16x16 : 0 < S8x5x16x16.numel
  transposes_S8x625x16x16_S8x16x625x16_0_2_1_3 : S8x625x16x16.Transposes [0, 2, 1, 3] S8x16x625x16
  shapeCasts_S8x16x625x16_S8x10000x16 : S8x16x625x16.ShapeCasts S8x10000x16
  gather_S4x8x10001_S320000x1_S4x8x320000_01_2_n_n_2_1_481_wf : GatherDims.WF S4x8x10001 S320000x1 S4x8x320000 [0, 1] [2] [] [2] [] 1 ![4, 8, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x5x32x16.size a ≤ S4x8x625x32x16.size a
  hwx0_0 : ∀ i : grid0.Coords, EltTy.bits .f32 = 32 ∨ (Rect.block (s := S4x8x625x32x16) S4x8x5x32x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16x5x32x16.size a ≤ S4x16x625x32x16.size a
  hwx0_1 : ∀ i : grid0.Coords, EltTy.bits .f32 = 32 ∨ (Rect.block (s := S4x16x625x32x16) S4x16x5x32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5x16x16.size a ≤ S8x625x16x16.size a
  hwx0_2 : ∀ i : grid0.Coords, EltTy.bits .f32 = 32 ∨ (Rect.block (s := S8x625x16x16) S8x5x16x16.size (cc0_transform_2 i) (hinb0_2 i)).WholeWords (EltTy.packing .f32)

variable [Facts₀]

def gather_S4x8x10001_S320000x1_S4x8x320000_01_2_n_n_2_1_481 : GatherDims S4x8x10001 S320000x1 S4x8x320000 where
  offsetDims := [0, 1]
  collapsedSliceDims := [2]
  operandBatchingDims := []
  startIndicesBatchingDims := []
  startIndexMap := [2]
  indexVectorDim := 1
  sliceSizes := ![4, 8, 1]
  wf := gather_S4x8x10001_S320000x1_S4x8x320000_01_2_n_n_2_1_481_wf

abbrev win0_0 : Pipeline.Window sig grid0 :=
  Pipeline.Window.ofSpec (Memref.whole main_v4) S4x8x5x32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4x16x5x32x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x5x16x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x10000x4 : Shape := ⟨3, ![8, 10000, 4]⟩
abbrev S320000 : Shape := ⟨1, ![320000]⟩
abbrev S4x320000x16 : Shape := ⟨3, ![4, 320000, 16]⟩
abbrev S_ : Shape := ⟨0, ![]⟩
abbrev S8x1x4 : Shape := ⟨3, ![8, 1, 4]⟩
abbrev S8x10001x4 : Shape := ⟨3, ![8, 10001, 4]⟩
abbrev S1x320000 : Shape := ⟨2, ![1, 320000]⟩
abbrev S16x320000 : Shape := ⟨2, ![16, 320000]⟩
abbrev S5120000 : Shape := ⟨1, ![5120000]⟩
abbrev S320000x16 : Shape := ⟨2, ![320000, 16]⟩
abbrev S8x10000x16 : Shape := ⟨3, ![8, 10000, 16]⟩
abbrev S8x10001x1 : Shape := ⟨3, ![8, 10001, 1]⟩
abbrev S8x10001 : Shape := ⟨2, ![8, 10001]⟩
abbrev S320000x16x1 : Shape := ⟨3, ![320000, 16, 1]⟩
abbrev S8x320000x16 : Shape := ⟨3, ![8, 320000, 16]⟩
abbrev S1x320000x16 : Shape := ⟨3, ![1, 320000, 16]⟩
abbrev S8x10000x32x16 : Shape := ⟨4, ![8, 10000, 32, 16]⟩

abbrev nBuf : Space → Nat
  | .hbm => 92
  | .vmem => 0
  | .smem => 0
  | _ => 0

abbrev bufTy : (tb : Table) → Fin (tcTables nBuf tb) → BufTy
  | .hbm, ⟨0, _⟩ => ⟨S8x10000x4, .f32⟩
  | .hbm, ⟨1, _⟩ => ⟨S320000, .i32⟩
  | .hbm, ⟨2, _⟩ => ⟨S4x320000x16, .f32⟩
  | .hbm, ⟨3, _⟩ => ⟨S_, .f32⟩
  | .hbm, ⟨4, _⟩ => ⟨S8x1x4, .f32⟩
  | .hbm, ⟨5, _⟩ => ⟨S8x10001x4, .f32⟩
  | .hbm, ⟨6, _⟩ => ⟨S1x320000, .i32⟩
  | .hbm, ⟨7, _⟩ => ⟨S16x320000, .i32⟩
  | .hbm, ⟨8, _⟩ => ⟨S5120000, .i32⟩
  | .hbm, ⟨9, _⟩ => ⟨S320000x16, .i32⟩
  | .hbm, ⟨10, _⟩ => ⟨S_, .f32⟩
  | .hbm, ⟨11, _⟩ => ⟨S8x10000x16, .f32⟩
  | .hbm, ⟨12, _⟩ => ⟨S8x10001x1, .f32⟩
  | .hbm, ⟨13, _⟩ => ⟨S8x10001, .f32⟩
  | .hbm, ⟨14, _⟩ => ⟨S_, .i32⟩
  | .hbm, ⟨15, _⟩ => ⟨S320000x16, .i32⟩
  | .hbm, ⟨16, _⟩ => ⟨S320000x16, .i1⟩
  | .hbm, ⟨17, _⟩ => ⟨S_, .i32⟩
  | .hbm, ⟨18, _⟩ => ⟨S320000x16, .i32⟩
  | .hbm, ⟨19, _⟩ => ⟨S320000x16, .i32⟩
  | .hbm, ⟨20, _⟩ => ⟨S320000x16, .i32⟩
  | .hbm, ⟨21, _⟩ => ⟨S320000x16x1, .i32⟩
  | .hbm, ⟨22, _⟩ => ⟨S8x320000x16, .f32⟩
  | .hbm, ⟨23, _⟩ => ⟨S1x320000x16, .f32⟩
  | .hbm, ⟨24, _⟩ => ⟨S320000x16, .f32⟩
  | .hbm, ⟨25, _⟩ => ⟨S1x320000x16, .f32⟩
  | .hbm, ⟨26, _⟩ => ⟨S8x320000x16, .f32⟩
  | .hbm, ⟨27, _⟩ => ⟨S8x320000x16, .f32⟩
  | .hbm, ⟨28, _⟩ => ⟨S8x10000x32x16, .f32⟩
  | .hbm, ⟨29, _⟩ => ⟨S_, .f32⟩
  | .hbm, ⟨30, _⟩ => ⟨S8x10000x16, .f32⟩
  | .hbm, ⟨31, _⟩ => ⟨S8x10000x16, .f32⟩
  | .hbm, ⟨32, _⟩ => ⟨S8x10001x1, .f32⟩
  | .hbm, ⟨33, _⟩ => ⟨S8x10001, .f32⟩
  | .hbm, ⟨34, _⟩ => ⟨S_, .i32⟩
  | .hbm, ⟨35, _⟩ => ⟨S320000x16, .i32⟩
  | .hbm, ⟨36, _⟩ => ⟨S320000x16, .i1⟩
  | .hbm, ⟨37, _⟩ => ⟨S_, .i32⟩
  | .hbm, ⟨38, _⟩ => ⟨S320000x16, .i32⟩
  | .hbm, ⟨39, _⟩ => ⟨S320000x16, .i32⟩
  | .hbm, ⟨40, _⟩ => ⟨S320000x16, .i32⟩
  | .hbm, ⟨41, _⟩ => ⟨S320000x16x1, .i32⟩
  | .hbm, ⟨42, _⟩ => ⟨S8x320000x16, .f32⟩
  | .hbm, ⟨43, _⟩ => ⟨S1x320000x16, .f32⟩
  | .hbm, ⟨44, _⟩ => ⟨S320000x16, .f32⟩
  | .hbm, ⟨45, _⟩ => ⟨S1x320000x16, .f32⟩
  | .hbm, ⟨46, _⟩ => ⟨S8x320000x16, .f32⟩
  | .hbm, ⟨47, _⟩ => ⟨S8x320000x16, .f32⟩
  | .hbm, ⟨48, _⟩ => ⟨S8x10000x32x16, .f32⟩
  | .hbm, ⟨49, _⟩ => ⟨S_, .f32⟩
  | .hbm, ⟨50, _⟩ => ⟨S8x10000x16, .f32⟩
  | .hbm, ⟨51, _⟩ => ⟨S8x10000x16, .f32⟩
  | .hbm, ⟨52, _⟩ => ⟨S8x10001x1, .f32⟩
  | .hbm, ⟨53, _⟩ => ⟨S8x10001, .f32⟩
  | .hbm, ⟨54, _⟩ => ⟨S_, .i32⟩
  | .hbm, ⟨55, _⟩ => ⟨S320000x16, .i32⟩
  | .hbm, ⟨56, _⟩ => ⟨S320000x16, .i1⟩
  | .hbm, ⟨57, _⟩ => ⟨S_, .i32⟩
  | .hbm, ⟨58, _⟩ => ⟨S320000x16, .i32⟩
  | .hbm, ⟨59, _⟩ => ⟨S320000x16, .i32⟩
  | .hbm, ⟨60, _⟩ => ⟨S320000x16, .i32⟩
  | .hbm, ⟨61, _⟩ => ⟨S320000x16x1, .i32⟩
  | .hbm, ⟨62, _⟩ => ⟨S8x320000x16, .f32⟩
  | .hbm, ⟨63, _⟩ => ⟨S1x320000x16, .f32⟩
  | .hbm, ⟨64, _⟩ => ⟨S320000x16, .f32⟩
  | .hbm, ⟨65, _⟩ => ⟨S1x320000x16, .f32⟩
  | .hbm, ⟨66, _⟩ => ⟨S8x320000x16, .f32⟩
  | .hbm, ⟨67, _⟩ => ⟨S8x320000x16, .f32⟩
  | .hbm, ⟨68, _⟩ => ⟨S8x10000x32x16, .f32⟩
  | .hbm, ⟨69, _⟩ => ⟨S_, .f32⟩
  | .hbm, ⟨70, _⟩ => ⟨S8x10000x16, .f32⟩
  | .hbm, ⟨71, _⟩ => ⟨S8x10000x16, .f32⟩
  | .hbm, ⟨72, _⟩ => ⟨S8x10001x1, .f32⟩
  | .hbm, ⟨73, _⟩ => ⟨S8x10001, .f32⟩
  | .hbm, ⟨74, _⟩ => ⟨S_, .i32⟩
  | .hbm, ⟨75, _⟩ => ⟨S320000x16, .i32⟩
  | .hbm, ⟨76, _⟩ => ⟨S320000x16, .i1⟩
  | .hbm, ⟨77, _⟩ => ⟨S_, .i32⟩
  | .hbm, ⟨78, _⟩ => ⟨S320000x16, .i32⟩
  | .hbm, ⟨79, _⟩ => ⟨S320000x16, .i32⟩
  | .hbm, ⟨80, _⟩ => ⟨S320000x16, .i32⟩
  | .hbm, ⟨81, _⟩ => ⟨S320000x16x1, .i32⟩
  | .hbm, ⟨82, _⟩ => ⟨S8x320000x16, .f32⟩
  | .hbm, ⟨83, _⟩ => ⟨S1x320000x16, .f32⟩
  | .hbm, ⟨84, _⟩ => ⟨S320000x16, .f32⟩
  | .hbm, ⟨85, _⟩ => ⟨S1x320000x16, .f32⟩
  | .hbm, ⟨86, _⟩ => ⟨S8x320000x16, .f32⟩
  | .hbm, ⟨87, _⟩ => ⟨S8x320000x16, .f32⟩
  | .hbm, ⟨88, _⟩ => ⟨S8x10000x32x16, .f32⟩
  | .hbm, ⟨89, _⟩ => ⟨S_, .f32⟩
  | .hbm, ⟨90, _⟩ => ⟨S8x10000x16, .f32⟩
  | .hbm, ⟨91, _⟩ => ⟨S8x10000x16, .f32⟩
  | _, _ => ⟨S8x10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_9 : Ref sig .tc := ⟨.hbm, 74, rfl⟩
abbrev main_v60 : Ref sig .tc := ⟨.hbm, 75, rfl⟩
abbrev main_v61 : Ref sig .tc := ⟨.hbm, 76, rfl⟩
abbrev main_c_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_11 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]

class Facts₀ : Prop where
  bcast_S_S8x1x4 : S_.BroadcastsInDim S8x1x4 (![] : Fin 0 → Fin S8x1x4.rank)
  concatenates_S8x10000x4_S8x1x4_S8x10001x4_d1 : Shape.Concatenates [S8x10000x4, S8x1x4] S8x10001x4 1
  shapeCasts_S320000_S1x320000 : S320000.ShapeCasts S1x320000
  bcast_S1x320000_S16x320000_0_1 : S1x320000.BroadcastsInDim S16x320000 (![0, 1] : Fin 2 → Fin S16x320000.rank)
  shapeCasts_S16x320000_S5120000 : S16x320000.ShapeCasts S5120000
  shapeCasts_S5120000_S320000x16 : S5120000.ShapeCasts S320000x16
  bcast_S_S8x10000x16 : S_.BroadcastsInDim S8x10000x16 (![] : Fin 0 → Fin S8x10000x16.rank)
  slices_S8x10001x4_S8x10001x1_0_0_0 : S8x10001x4.Slices ![0, 0, 0] S8x10001x1
  shapeCasts_S8x10001x1_S8x10001 : S8x10001x1.ShapeCasts S8x10001
  bcast_S_S320000x16 : S_.BroadcastsInDim S320000x16 (![] : Fin 0 → Fin S320000x16.rank)
  bcast_S320000x16_S320000x16x1_0_1 : S320000x16.BroadcastsInDim S320000x16x1 (![0, 1] : Fin 2 → Fin S320000x16x1.rank)
  slices_S4x320000x16_S1x320000x16_0_0_0 : S4x320000x16.Slices ![0, 0, 0] S1x320000x16
  shapeCasts_S1x320000x16_S320000x16 : S1x320000x16.ShapeCasts S320000x16
  bcast_S320000x16_S1x320000x16_1_2 : S320000x16.BroadcastsInDim S1x320000x16 (![1, 2] : Fin 2 → Fin S1x320000x16.rank)
  bcast_S1x320000x16_S8x320000x16_0_1_2 : S1x320000x16.BroadcastsInDim S8x320000x16 (![0, 1, 2] : Fin 3 → Fin S8x320000x16.rank)
  shapeCasts_S8x320000x16_S8x10000x32x16 : S8x320000x16.ShapeCasts S8x10000x32x16
  reducesTo_S8x10000x32x16_S8x10000x16_d2 : S8x10000x32x16.ReducesTo [2] S8x10000x16
  h_S_ : 0 < S_.numel
  slices_S8x10001x4_S8x10001x1_0_0_1 : S8x10001x4.Slices ![0, 0, 1] S8x10001x1
  slices_S4x320000x16_S1x320000x16_1_0_0 : S4x320000x16.Slices ![1, 0, 0] S1x320000x16
  slices_S8x10001x4_S8x10001x1_0_0_2 : S8x10001x4.Slices ![0, 0, 2] S8x10001x1
  slices_S4x320000x16_S1x320000x16_2_0_0 : S4x320000x16.Slices ![2, 0, 0] S1x320000x16
  slices_S8x10001x4_S8x10001x1_0_0_3 : S8x10001x4.Slices ![0, 0, 3] S8x10001x1
  slices_S4x320000x16_S1x320000x16_3_0_0 : S4x320000x16.Slices ![3, 0, 0] S1x320000x16
  gather_S8x10001_S320000x16x1_S8x320000x16_0_1_n_n_1_2_81_wf : GatherDims.WF S8x10001 S320000x16x1 S8x320000x16 [0] [1] [] [1] [] 2 ![8, 1]

variable [Facts₀]

def gather_S8x10001_S320000x16x1_S8x320000x16_0_1_n_n_1_2_81 : GatherDims S8x10001 S320000x16x1 S8x320000x16 where
  offsetDims := [0]
  collapsedSliceDims := [1]
  operandBatchingDims := []
  startIndicesBatchingDims := []
  startIndexMap := [1]
  indexVectorDim := 2
  sliceSizes := ![8, 1]
  wf := gather_S8x10001_S320000x16x1_S8x320000x16_0_1_n_n_1_2_81_wf

class Facts : Prop extends Facts₀ where

variable [Facts]
-- ==== Proof.Spec.lean ====
/-
  The function both programs compute, stated once over the argument arrays.

  A node axis of extent 10000 is padded with one zero row (index 10000). A neighbour word `e` selects a node on the padded
  axis the way both gathers read it: a negative word counts back from the end (`e + 10001`), and the result, read as a
  signed integer, is clamped into `[0, 10000]` (`node`). The neighbour table is the flat word array tiled sixteen times
  and cut into rows of sixteen, so row `32 n + d`, column `c` of the table is word `(16 (32 n + d) + c) mod 320000`
  of the array, which is `512 (n mod 625) + 16 d + c` (`edgePos`). The result at batch `b`, node `n`, channel `c` is

      ∑ i < 4, ∑ d < 32, xpad[b, node(edges[edgePos n d c]), i] · w[i, 32 n + d, c]

  grouped as the four per-input-channel window sums added left to right (`G`).

  `pass_of_inRange`: a neighbour word in `[-10001, 10000]` wraps into `[0, 10000]`, so a range test on the wrapped
  word (`0 ≤ · ≤ 10000`) succeeds.
-/
import Idealize.ShloMosaic.PureOps.Ideal
import Idealize.ShloMosaic.Lib.ValueIdx

noncomputable section

namespace Cert.GnnSpec

open Idealize.ShloMosaic Idealize.ShloMosaic.ValueIdx

abbrev SX : Shape := ⟨3, ![8, 10000, 4]⟩
abbrev SE : Shape := ⟨1, ![320000]⟩
abbrev SW : Shape := ⟨3, ![4, 320000, 16]⟩
abbrev SO : Shape := ⟨3, ![8, 10000, 16]⟩

/-- A neighbour word with a negative value counted back from the end of the padded node axis. -/
def wrapWord (e : BitVec 32) : BitVec 32 :=
  Scalar.select (IntOp.cmpi .slt e 0#32) (IntOp.addi e 10001#32) e

/-- The node a neighbour word selects on the padded axis: the wrapped word, signed, clamped into `[0, 10000]`. -/
def node (e : BitVec 32) : Fin 10001 := ⟨min (wrapWord e).toInt.toNat 10000, by omega⟩

/-- `x` with the zero row appended on the node axis. -/
def xpad (x : FVec Ideal SX .f32) (b : Fin 8) (n : Fin 10001) (i : Fin 4) : EReal :=
  if h : n.val < 10000 then x (ix3 b ⟨n.val, h⟩ i) else 0

/-- Where row `32 n + d`, column `c` of the tiled neighbour table sits in the flat word array. -/
def edgePos (n : Fin 10000) (d : Fin 32) (c : Fin 16) : Fin 320000 :=
  ⟨(n.val % 625) * 512 + d.val * 16 + c.val, by omega⟩

/-- The edge row of node `n`'s `d`-th neighbour. -/
def wPos (n : Fin 10000) (d : Fin 32) : Fin 320000 := ⟨n.val * 32 + d.val, by omega⟩

/-- One product: the gathered entry of input channel `i` times the edge's weight for that channel. -/
def term (x : FVec Ideal SX .f32) (e : IVec SE 32) (w : FVec Ideal SW .f32)
    (b : Fin 8) (n : Fin 10000) (c : Fin 16) (i : Fin 4) (d : Fin 32) : EReal :=
  xpad x b (node (e (ix1 (edgePos n d c)))) i * w (ix3 i (wPos n d) c)

/-- The window sum of one input channel. -/
def chan (x : FVec Ideal SX .f32) (e : IVec SE 32) (w : FVec Ideal SW .f32)
    (b : Fin 8) (n : Fin 10000) (c : Fin 16) (i : Fin 4) : EReal :=
  ∑ d : Fin 32, term x e w b n c i d

/-- The result by coordinates: the four channels' window sums, added left to right. -/
def Gc (x : FVec Ideal SX .f32) (e : IVec SE 32) (w : FVec Ideal SW .f32)
    (b : Fin 8) (n : Fin 10000) (c : Fin 16) : EReal :=
  chan x e w b n c 0 + chan x e w b n c 1 + chan x e w b n c 2 + chan x e w b n c 3

/-- The result array. -/
def G (x : FVec Ideal SX .f32) (e : IVec SE 32) (w : FVec Ideal SW .f32) : FVec Ideal SO .f32 :=
  fun j => Gc x e w (j 0) (j 1) (j 2)

theorem G_apply (x : FVec Ideal SX .f32) (e : IVec SE 32) (w : FVec Ideal SW .f32)
    (b : Fin 8) (n : Fin 10000) (c : Fin 16) : G x e w (ix3 b n c) = Gc x e w b n c := rfl

/-- Every neighbour word lies in the range in which indexing the padded axis is in bounds. -/
def InRange (e : IVec SE 32) : Prop := ∀ j : SE.Idx, -10001 ≤ (e j).toInt ∧ (e j).toInt ≤ 10000

/-- A word in `[-10001, 10000]` wraps into `[0, 10000]`. -/
theorem wrapWord_range (e : BitVec 32) (h1 : -10001 ≤ e.toInt) (h2 : e.toInt ≤ 10000) :
    0 ≤ (wrapWord e).toInt ∧ (wrapWord e).toInt ≤ 10000 := by
  unfold wrapWord Scalar.select IntOp.cmpi IntOp.addi
  by_cases hneg : e.toInt < 0
  · have hs : e.slt 0#32 = true := by
      simp only [BitVec.slt, decide_eq_true_eq]; simpa using hneg
    rw [if_pos (by rw [hs]; rfl)]
    have h10001 : (10001#32 : BitVec 32).toInt = 10001 := by decide
    rw [BitVec.toInt_add, h10001]
    have : (e.toInt + 10001).bmod (2 ^ 32) = e.toInt + 10001 := by
      apply Int.bmod_eq_of_le <;> omega
    omega
  · have hs : e.slt 0#32 = false := by
      simp only [BitVec.slt, decide_eq_false_iff_not]; simpa using hneg
    rw [if_neg (by rw [hs]; show ¬ BitVec.ofBool false = 1#1; decide)]
    omega

/-- So both halves of a range test `0 ≤ · ≤ 10000` on the wrapped word succeed. -/
theorem pass_of_inRange (e : BitVec 32) (h1 : -10001 ≤ e.toInt) (h2 : e.toInt ≤ 10000) :
    IntOp.cmpi .sge (wrapWord e) 0#32 = 1#1 ∧ IntOp.cmpi .sle (wrapWord e) 10000#32 = 1#1 := by
  obtain ⟨h0, h1'⟩ := wrapWord_range e h1 h2
  have z : (0#32 : BitVec 32).toInt = 0 := by decide
  have t : (10000#32 : BitVec 32).toInt = 10000 := by decide
  constructor
  · unfold IntOp.cmpi; simp only [BitVec.sle, z]; simp [h0]
  · unfold IntOp.cmpi; simp only [BitVec.sle, t]; simp [h1']

end Cert.GnnSpec

end
-- ==== Proof.PreDecode.lean ====
/-
  What the precondition says about the neighbour words.

  The precondition is the conjunction of four all-reductions: every entry of `x` and of the weights is finite, every
  neighbour word is at least `-10001` (signed), and every neighbour word is at most `10000` (signed). The last two say
  that each word lies in the range in which indexing the padded node axis is in bounds.
-/
import proofs.«417479_j13357348290890_2_alg».proof.Pre_finite_inputs
import proofs.«417479_j13357348290890_2_alg».proof.Proof.Spec
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.GnnSpec

/-- If the printed precondition is all ones on the three arrays, every neighbour word is in `[-10001, 10000]`. -/
theorem inRange_of_fn [Cert.Pre_finite_inputs.Facts]
    (a0 : FVec Ideal Cert.Pre_finite_inputs.S8x10000x4 .f32) (a1 : IVec Cert.Pre_finite_inputs.S320000 32)
    (a2 : FVec Ideal Cert.Pre_finite_inputs.S4x320000x16 .f32)
    (h : Cert.Pre_finite_inputs.fn (F := Ideal) a0 a1 a2 = fun _ => 1#1) : InRange a1 := by
  -- the result has one index; read the claim there
  have h0 := congrFun h ValueIdx.ix0
  dsimp only [Cert.Pre_finite_inputs.fn, Cert.Pre_finite_inputs.fn_part1] at h0
  -- the outer conjunction, then the inner one: the two range tests' all-reductions
  obtain ⟨h12, h15⟩ := IntOp.andi_eq_one.1 h0
  obtain ⟨-, h11⟩ := IntOp.andi_eq_one.1 h12
  haveI : Subsingleton Cert.Pre_finite_inputs.S_.Idx := ⟨fun a b => funext fun d => d.elim0⟩
  have z : (4294957295#32 : BitVec 32).toInt = -10001 := by decide
  have t : (10000#32 : BitVec 32).toInt = 10000 := by decide
  intro j
  -- each all-reduction that is one has a one at every word
  have hge := Host.reduce_andi_all _ _ _ _ _ h11 j
  have hle := Host.reduce_andi_all _ _ _ _ _ h15 j
  -- a broadcast scalar constant read at an index is the constant; a comparison that is one is the integer inequality
  have hge' : IntOp.cmpi .sge (a1 j) (4294957295#32 : BitVec 32) = 1#1 := hge
  have hle' : IntOp.cmpi .sle (a1 j) (10000#32 : BitVec 32) = 1#1 := hle
  rw [IntOp.cmpi_sge, z] at hge'
  rw [IntOp.cmpi_sle, t] at hle'
  exact ⟨hge', hle'⟩

end Cert.PreDecode

end
-- ==== Proof.RefValue.lean ====
/-
  The reference's result is the specification's function of the argument arrays.

  The reference pads `x` with a zero row, tiles the neighbour words sixteen times and cuts them into rows of sixteen, and for
  each input channel in turn gathers the channel's column of the padded `x` at the wrapped neighbour table (the gather
  clamps the wrapped word into the padded axis), multiplies by the channel's weights, sums each node's window of 32
  edges, and adds the window sums onto a zero array, channel after channel. Read at `(b, n, c)` that is the four window
  sums of `xpad[b, node(edges[(16 (32 n + d) + c) mod 320000]), i] · w[i, 32 n + d, c]` added left to right onto zero, and
  `(16 (32 n + d) + c) mod 320000 = 512 (n mod 625) + 16 d + c`.
-/
import proofs.«417479_j13357348290890_2_alg».proof.Proof.Gen.ReferenceIdeal.Run
import proofs.«417479_j13357348290890_2_alg».proof.Proof.Gen.ReferenceIdeal.Read
import proofs.«417479_j13357348290890_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.GnnSpec

/-- The tiled neighbour table at row `e`, column `c` is word `(16 e + c) mod 320000` of the flat array. -/
theorem table_apply (x1 : (⟨S320000, .i32⟩ : BufTy).Contents (Elt Ideal)) (e : Fin 320000) (c : Fin 16) :
    val_main_v5 (F := Ideal) x1 (ix2 e c) = x1 (ix1 ⟨(e.val * 16 + c.val) % 320000, Nat.mod_lt _ (by decide)⟩) := by
  rw [val_main_v5_apply, val_main_v4_apply, val_main_v3_apply, val_main_v2_apply]
  refine congrArg x1 (funext fun a => Fin.ext ?_)
  match a with
  | ⟨0, _⟩ =>
    show 0 * 320000 + (e.val * 16 + c.val) % 320000 = (e.val * 16 + c.val) % 320000
    omega

/-- The padded array at `(b, n, i)`: `x` on the first 10000 rows of the node axis, zero on the appended row. -/
theorem pad_apply (x0 : (⟨S8x10000x4, .f32⟩ : BufTy).Contents (Elt Ideal)) (b : Fin 8) (n : Fin 10001) (i : Fin 4) :
    val_main_v1 (F := Ideal) x0 (ix3 b n i) = xpad x0 b n i := by
  unfold xpad val_main_v1
  by_cases h : n.val < 10000
  · rw [dif_pos h]
    exact concatenate_pair_apply_left (1 : Fin 3) x0 (val_main_v0 (F := Ideal))
      concatenates_S8x10000x4_S8x1x4_S8x10001x4_d1 (ix3 b n i) rfl (ix3 b ⟨n.val, h⟩ i)
      (fun a => by match a with | ⟨0, _⟩ => rfl | ⟨1, _⟩ => rfl | ⟨2, _⟩ => rfl)
  · rw [dif_neg h]
    have hn : n.val = 10000 := by have := n.isLt; omega
    refine (concatenate_pair_apply_right (1 : Fin 3) x0 (val_main_v0 (F := Ideal))
      concatenates_S8x10000x4_S8x1x4_S8x10001x4_d1 (ix3 b n i) rfl rfl (ix3 b (0 : Fin 1) i)
      (fun a ha => by
        match a with
        | ⟨0, _⟩ => rfl
        | ⟨1, _⟩ => exact absurd rfl ha
        | ⟨2, _⟩ => rfl)
      (by show 0 + 10000 = n.val; omega)).trans ?_
    rw [val_main_v0_apply, val_main_cst_apply]
    exact Ideal.ofBits_zero_f32

/-- The gather of a `[8, 10001]` operand at a `[320000, 16, 1]` array of start indices, read at `(b, e, c)`: the
    operand's row `b` at the start index `idx[e, c, 0]`, read signed and clamped into `[0, 10000]`. -/
theorem gather_apply {α : Type} (x : S8x10001.Idx → α) (idx : IVec S320000x16x1 32) (b : Fin 8) (e : Fin 320000) (c : Fin 16) :
    Host.gather gather_S8x10001_S320000x16x1_S8x320000x16_0_1_n_n_1_2_81 x idx (ix3 b e c)
      = x (ix2 b ⟨min (idx (ix3 e c (0 : Fin 1))).toInt.toNat 10000, by omega⟩) := by
  unfold Host.gather
  congr 1
  funext a
  refine Fin.ext ?_
  match a with
  | ⟨0, _⟩ =>
    -- the batch axis of the operand: not start-indexed, not batching; it is the operand's one kept axis and reads the
    -- result's offset axis 0
    show gather_S8x10001_S320000x16x1_S8x320000x16_0_1_n_n_1_2_81.start (ix3 b e c) idx (0 : Fin 2)
      + gather_S8x10001_S320000x16x1_S8x320000x16_0_1_n_n_1_2_81.batchCoord (ix3 b e c) (0 : Fin 2)
      + gather_S8x10001_S320000x16x1_S8x320000x16_0_1_n_n_1_2_81.offCoord (ix3 b e c) (0 : Fin 2) = b.val
    rw [GatherDims.batchCoord_eq_zero _ _ _ List.not_mem_nil]
    have hm : (0 : Fin 2) ∉ gather_S8x10001_S320000x16x1_S8x320000x16_0_1_n_n_1_2_81.startIndexMap := by
      show (0 : Fin 2) ∉ [(1 : Fin 2)]
      decide
    have hk : (0 : Fin 2) ∈ gather_S8x10001_S320000x16x1_S8x320000x16_0_1_n_n_1_2_81.sKept :=
      (GatherDims.mem_sKept _ _).mpr ⟨by show (0 : Fin 2) ∉ [(1 : Fin 2)]; decide, List.not_mem_nil⟩
    unfold GatherDims.start GatherDims.offCoord
    rw [dif_neg hm, dif_pos hk]
    simp only [Nat.add_zero, Nat.zero_add]
    rfl
  | ⟨1, _⟩ =>
    -- the node axis of the operand: collapsed and start-indexed; it reads the start index at `(e, c, 0)`, signed, clamped
    -- into `[0, 10001 - 1]`
    show gather_S8x10001_S320000x16x1_S8x320000x16_0_1_n_n_1_2_81.start (ix3 b e c) idx (1 : Fin 2)
      + gather_S8x10001_S320000x16x1_S8x320000x16_0_1_n_n_1_2_81.batchCoord (ix3 b e c) (1 : Fin 2)
      + gather_S8x10001_S320000x16x1_S8x320000x16_0_1_n_n_1_2_81.offCoord (ix3 b e c) (1 : Fin 2)
      = min (idx (ix3 e c (0 : Fin 1))).toInt.toNat 10000
    have hm : (1 : Fin 2) ∈ gather_S8x10001_S320000x16x1_S8x320000x16_0_1_n_n_1_2_81.startIndexMap :=
      List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm]
    have hsi : gather_S8x10001_S320000x16x1_S8x320000x16_0_1_n_n_1_2_81.siIdx (ix3 b e c)
        ⟨List.idxOf (1 : Fin 2) gather_S8x10001_S320000x16x1_S8x320000x16_0_1_n_n_1_2_81.startIndexMap,
          List.idxOf_lt_length_iff.2 hm⟩ = ix3 e c (0 : Fin 1) := by
      funext q; refine Fin.ext ?_
      match q with
      | ⟨0, _⟩ => rfl
      | ⟨1, _⟩ => rfl
      | ⟨2, _⟩ => rfl
    rw [hsi]
    rfl

/-! ### Input channel 0 -/

/-- Column 0 of the padded array, as a `[8, 10001]` array, at `(b, m)`. -/
theorem col0_apply (x0 : (⟨S8x10000x4, .f32⟩ : BufTy).Contents (Elt Ideal)) (b : Fin 8) (m : Fin 10001) :
    val_main_v8 (F := Ideal) x0 (ix2 b m) = xpad x0 b m 0 := by
  rw [val_main_v8_apply, val_main_v7_apply, ← pad_apply]
  refine congrArg (val_main_v1 (F := Ideal) x0) (funext fun a => Fin.ext ?_)
  have hb := b.isLt
  have hm := m.isLt
  match a with
  | ⟨0, _⟩ => show (b.val * 10001 + m.val) / 10001 = b.val; omega
  | ⟨1, _⟩ => show (b.val * 10001 + m.val) / 1 % 10001 = m.val; omega
  | ⟨2, _⟩ => show 0 = 0; rfl

/-- The wrapped neighbour table of the first chain at `(e, c, 0)`: the wrapped word `(16 e + c) mod 320000`. -/
theorem wrapped0_apply (x1 : (⟨S320000, .i32⟩ : BufTy).Contents (Elt Ideal)) (e : Fin 320000) (c : Fin 16) :
    val_main_v14 (F := Ideal) x1 (ix3 e c (0 : Fin 1))
      = wrapWord (x1 (ix1 ⟨(e.val * 16 + c.val) % 320000, Nat.mod_lt _ (by decide)⟩)) := by
  rw [val_main_v14_apply, val_main_v13_apply, val_main_v10_apply, val_main_v12_apply, val_main_v9_apply,
    val_main_c_apply, val_main_v11_apply, val_main_c_1_apply]
  have hi : idx_main_v14 (ix3 e c (0 : Fin 1)) = ix2 e c := by
    funext a; match a with | ⟨0, _⟩ => rfl | ⟨1, _⟩ => rfl
  rw [hi, table_apply]
  rfl

/-- The first chain's gathered column at `(b, e, c)`: the padded array's channel 0 at the node the table's word selects. -/
theorem gathered0_apply (x0 : (⟨S8x10000x4, .f32⟩ : BufTy).Contents (Elt Ideal)) (x1 : (⟨S320000, .i32⟩ : BufTy).Contents (Elt Ideal)) (b : Fin 8) (e : Fin 320000) (c : Fin 16) :
    val_main_v15 (F := Ideal) x0 x1 (ix3 b e c)
      = xpad x0 b (node (x1 (ix1 ⟨(e.val * 16 + c.val) % 320000, Nat.mod_lt _ (by decide)⟩))) 0 := by
  unfold val_main_v15
  rw [gather_apply, col0_apply]
  refine congrArg (fun m => xpad x0 b m 0) (Fin.ext ?_)
  show min (val_main_v14 (F := Ideal) x1 (ix3 e c (0 : Fin 1))).toInt.toNat 10000 = _
  rw [wrapped0_apply]
  rfl

/-- The first chain's weights, broadcast over the batch, at `(b, e, c)`: channel 0's weight of edge row `e`, column `c`. -/
theorem weights0_apply (x2 : (⟨S4x320000x16, .f32⟩ : BufTy).Contents (Elt Ideal)) (b : Fin 8) (e : Fin 320000) (c : Fin 16) :
    val_main_v19 (F := Ideal) x2 (ix3 b e c) = x2 (ix3 (0 : Fin 4) e c) := by
  rw [val_main_v19_apply, val_main_v18_apply, val_main_v17_apply, val_main_v16_apply]
  refine congrArg x2 (funext fun a => Fin.ext ?_)
  have he := e.isLt
  have hc := c.isLt
  match a with
  | ⟨0, _⟩ => show 0 = 0; rfl
  | ⟨1, _⟩ => show (e.val * 16 + c.val) / 16 % 320000 = e.val; omega
  | ⟨2, _⟩ => show (e.val * 16 + c.val) % 16 = c.val; omega

/-- One product of the first chain, at batch `b`, node `n`, window position `d`, column `c`. -/
theorem term0_apply (x0 : (⟨S8x10000x4, .f32⟩ : BufTy).Contents (Elt Ideal)) (x1 : (⟨S320000, .i32⟩ : BufTy).Contents (Elt Ideal)) (x2 : (⟨S4x320000x16, .f32⟩ : BufTy).Contents (Elt Ideal)) (b : Fin 8) (n : Fin 10000) (d : Fin 32) (c : Fin 16) :
    val_main_v21 (F := Ideal) x0 x1 x2 (ix4 b n d c) = term x0 x1 x2 b n c 0 d := by
  rw [val_main_v21_apply, val_main_v20_apply]
  have hi : idx_main_v21 (ix4 b n d c) = ix3 b (wPos n d) c := by
    funext a; refine Fin.ext ?_
    have hb := b.isLt
    have hn := n.isLt
    have hd := d.isLt
    have hc := c.isLt
    match a with
    | ⟨0, _⟩ => show (((b.val * 10000 + n.val) * 32 + d.val) * 16 + c.val) / 5120000 = b.val; omega
    | ⟨1, _⟩ => show (((b.val * 10000 + n.val) * 32 + d.val) * 16 + c.val) / 16 % 320000 = n.val * 32 + d.val; omega
    | ⟨2, _⟩ => show (((b.val * 10000 + n.val) * 32 + d.val) * 16 + c.val) % 16 = c.val; omega
  rw [hi, gathered0_apply, weights0_apply]
  unfold term
  have hp : (⟨((wPos n d).val * 16 + c.val) % 320000, Nat.mod_lt _ (by decide)⟩ : Fin 320000) = edgePos n d c := by
    refine Fin.ext ?_
    have hn := n.isLt
    have hd := d.isLt
    have hc := c.isLt
    show ((n.val * 32 + d.val) * 16 + c.val) % 320000 = n.val % 625 * 512 + d.val * 16 + c.val
    omega
  rw [hp]
  rfl

/-- The first chain's window sum at `(b, n, c)`: zero plus channel 0's window sum. -/
theorem chan0_apply (x0 : (⟨S8x10000x4, .f32⟩ : BufTy).Contents (Elt Ideal)) (x1 : (⟨S320000, .i32⟩ : BufTy).Contents (Elt Ideal)) (x2 : (⟨S4x320000x16, .f32⟩ : BufTy).Contents (Elt Ideal)) (b : Fin 8) (n : Fin 10000) (c : Fin 16) :
    val_main_v22 (F := Ideal) x0 x1 x2 (ix3 b n c) = 0 + chan x0 x1 x2 b n c 0 := by
  rw [val_main_v22_apply, val_main_cst_2_apply]
  unfold chan
  refine congrArg₂ (· + ·) Ideal.ofBits_zero_f32 (Finset.sum_congr rfl fun d _ => ?_)
  have hi : idx_main_v22 (ix3 b n c) d = ix4 b n d c := by
    funext a; match a with | ⟨0, _⟩ => rfl | ⟨1, _⟩ => rfl | ⟨2, _⟩ => rfl | ⟨3, _⟩ => rfl
  rw [hi, term0_apply]

/-! ### Input channel 1 -/

/-- Column 1 of the padded array, as a `[8, 10001]` array, at `(b, m)`. -/
theorem col1_apply (x0 : (⟨S8x10000x4, .f32⟩ : BufTy).Contents (Elt Ideal)) (b : Fin 8) (m : Fin 10001) :
    val_main_v25 (F := Ideal) x0 (ix2 b m) = xpad x0 b m 1 := by
  rw [val_main_v25_apply, val_main_v24_apply, ← pad_apply]
  refine congrArg (val_main_v1 (F := Ideal) x0) (funext fun a => Fin.ext ?_)
  have hb := b.isLt
  have hm := m.isLt
  match a with
  | ⟨0, _⟩ => show (b.val * 10001 + m.val) / 10001 = b.val; omega
  | ⟨1, _⟩ => show (b.val * 10001 + m.val) / 1 % 10001 = m.val; omega
  | ⟨2, _⟩ => show 1 + 0 = 1; rfl

/-- The wrapped neighbour table of the second chain at `(e, c, 0)`: the wrapped word `(16 e + c) mod 320000`. -/
theorem wrapped1_apply (x1 : (⟨S320000, .i32⟩ : BufTy).Contents (Elt Ideal)) (e : Fin 320000) (c : Fin 16) :
    val_main_v31 (F := Ideal) x1 (ix3 e c (0 : Fin 1))
      = wrapWord (x1 (ix1 ⟨(e.val * 16 + c.val) % 320000, Nat.mod_lt _ (by decide)⟩)) := by
  rw [val_main_v31_apply, val_main_v30_apply, val_main_v27_apply, val_main_v29_apply, val_main_v26_apply,
    val_main_c_3_apply, val_main_v28_apply, val_main_c_4_apply]
  have hi : idx_main_v31 (ix3 e c (0 : Fin 1)) = ix2 e c := by
    funext a; match a with | ⟨0, _⟩ => rfl | ⟨1, _⟩ => rfl
  rw [hi, table_apply]
  rfl

/-- The second chain's gathered column at `(b, e, c)`: the padded array's channel 1 at the node the table's word selects. -/
theorem gathered1_apply (x0 : (⟨S8x10000x4, .f32⟩ : BufTy).Contents (Elt Ideal)) (x1 : (⟨S320000, .i32⟩ : BufTy).Contents (Elt Ideal)) (b : Fin 8) (e : Fin 320000) (c : Fin 16) :
    val_main_v32 (F := Ideal) x0 x1 (ix3 b e c)
      = xpad x0 b (node (x1 (ix1 ⟨(e.val * 16 + c.val) % 320000, Nat.mod_lt _ (by decide)⟩))) 1 := by
  unfold val_main_v32
  rw [gather_apply, col1_apply]
  refine congrArg (fun m => xpad x0 b m 1) (Fin.ext ?_)
  show min (val_main_v31 (F := Ideal) x1 (ix3 e c (0 : Fin 1))).toInt.toNat 10000 = _
  rw [wrapped1_apply]
  rfl

/-- The second chain's weights, broadcast over the batch, at `(b, e, c)`: channel 1's weight of edge row `e`, column `c`. -/
theorem weights1_apply (x2 : (⟨S4x320000x16, .f32⟩ : BufTy).Contents (Elt Ideal)) (b : Fin 8) (e : Fin 320000) (c : Fin 16) :
    val_main_v36 (F := Ideal) x2 (ix3 b e c) = x2 (ix3 (1 : Fin 4) e c) := by
  rw [val_main_v36_apply, val_main_v35_apply, val_main_v34_apply, val_main_v33_apply]
  refine congrArg x2 (funext fun a => Fin.ext ?_)
  have he := e.isLt
  have hc := c.isLt
  match a with
  | ⟨0, _⟩ => show 1 + 0 = 1; rfl
  | ⟨1, _⟩ => show (e.val * 16 + c.val) / 16 % 320000 = e.val; omega
  | ⟨2, _⟩ => show (e.val * 16 + c.val) % 16 = c.val; omega

/-- One product of the second chain, at batch `b`, node `n`, window position `d`, column `c`. -/
theorem term1_apply (x0 : (⟨S8x10000x4, .f32⟩ : BufTy).Contents (Elt Ideal)) (x1 : (⟨S320000, .i32⟩ : BufTy).Contents (Elt Ideal)) (x2 : (⟨S4x320000x16, .f32⟩ : BufTy).Contents (Elt Ideal)) (b : Fin 8) (n : Fin 10000) (d : Fin 32) (c : Fin 16) :
    val_main_v38 (F := Ideal) x0 x1 x2 (ix4 b n d c) = term x0 x1 x2 b n c 1 d := by
  rw [val_main_v38_apply, val_main_v37_apply]
  have hi : idx_main_v38 (ix4 b n d c) = ix3 b (wPos n d) c := by
    funext a; refine Fin.ext ?_
    have hb := b.isLt
    have hn := n.isLt
    have hd := d.isLt
    have hc := c.isLt
    match a with
    | ⟨0, _⟩ => show (((b.val * 10000 + n.val) * 32 + d.val) * 16 + c.val) / 5120000 = b.val; omega
    | ⟨1, _⟩ => show (((b.val * 10000 + n.val) * 32 + d.val) * 16 + c.val) / 16 % 320000 = n.val * 32 + d.val; omega
    | ⟨2, _⟩ => show (((b.val * 10000 + n.val) * 32 + d.val) * 16 + c.val) % 16 = c.val; omega
  rw [hi, gathered1_apply, weights1_apply]
  unfold term
  have hp : (⟨((wPos n d).val * 16 + c.val) % 320000, Nat.mod_lt _ (by decide)⟩ : Fin 320000) = edgePos n d c := by
    refine Fin.ext ?_
    have hn := n.isLt
    have hd := d.isLt
    have hc := c.isLt
    show ((n.val * 32 + d.val) * 16 + c.val) % 320000 = n.val % 625 * 512 + d.val * 16 + c.val
    omega
  rw [hp]
  rfl

/-- The second chain's window sum at `(b, n, c)`: zero plus channel 1's window sum. -/
theorem chan1_apply (x0 : (⟨S8x10000x4, .f32⟩ : BufTy).Contents (Elt Ideal)) (x1 : (⟨S320000, .i32⟩ : BufTy).Contents (Elt Ideal)) (x2 : (⟨S4x320000x16, .f32⟩ : BufTy).Contents (Elt Ideal)) (b : Fin 8) (n : Fin 10000) (c : Fin 16) :
    val_main_v39 (F := Ideal) x0 x1 x2 (ix3 b n c) = 0 + chan x0 x1 x2 b n c 1 := by
  rw [val_main_v39_apply, val_main_cst_5_apply]
  unfold chan
  refine congrArg₂ (· + ·) Ideal.ofBits_zero_f32 (Finset.sum_congr rfl fun d _ => ?_)
  have hi : idx_main_v39 (ix3 b n c) d = ix4 b n d c := by
    funext a; match a with | ⟨0, _⟩ => rfl | ⟨1, _⟩ => rfl | ⟨2, _⟩ => rfl | ⟨3, _⟩ => rfl
  rw [hi, term1_apply]

/-! ### Input channel 2 -/

/-- Column 2 of the padded array, as a `[8, 10001]` array, at `(b, m)`. -/
theorem col2_apply (x0 : (⟨S8x10000x4, .f32⟩ : BufTy).Contents (Elt Ideal)) (b : Fin 8) (m : Fin 10001) :
    val_main_v42 (F := Ideal) x0 (ix2 b m) = xpad x0 b m 2 := by
  rw [val_main_v42_apply, val_main_v41_apply, ← pad_apply]
  refine congrArg (val_main_v1 (F := Ideal) x0) (funext fun a => Fin.ext ?_)
  have hb := b.isLt
  have hm := m.isLt
  match a with
  | ⟨0, _⟩ => show (b.val * 10001 + m.val) / 10001 = b.val; omega
  | ⟨1, _⟩ => show (b.val * 10001 + m.val) / 1 % 10001 = m.val; omega
  | ⟨2, _⟩ => show 2 + 0 = 2; rfl

/-- The wrapped neighbour table of the third chain at `(e, c, 0)`: the wrapped word `(16 e + c) mod 320000`. -/
theorem wrapped2_apply (x1 : (⟨S320000, .i32⟩ : BufTy).Contents (Elt Ideal)) (e : Fin 320000) (c : Fin 16) :
    val_main_v48 (F := Ideal) x1 (ix3 e c (0 : Fin 1))
      = wrapWord (x1 (ix1 ⟨(e.val * 16 + c.val) % 320000, Nat.mod_lt _ (by decide)⟩)) := by
  rw [val_main_v48_apply, val_main_v47_apply, val_main_v44_apply, val_main_v46_apply, val_main_v43_apply,
    val_main_c_6_apply, val_main_v45_apply, val_main_c_7_apply]
  have hi : idx_main_v48 (ix3 e c (0 : Fin 1)) = ix2 e c := by
    funext a; match a with | ⟨0, _⟩ => rfl | ⟨1, _⟩ => rfl
  rw [hi, table_apply]
  rfl

/-- The third chain's gathered column at `(b, e, c)`: the padded array's channel 2 at the node the table's word selects. -/
theorem gathered2_apply (x0 : (⟨S8x10000x4, .f32⟩ : BufTy).Contents (Elt Ideal)) (x1 : (⟨S320000, .i32⟩ : BufTy).Contents (Elt Ideal)) (b : Fin 8) (e : Fin 320000) (c : Fin 16) :
    val_main_v49 (F := Ideal) x0 x1 (ix3 b e c)
      = xpad x0 b (node (x1 (ix1 ⟨(e.val * 16 + c.val) % 320000, Nat.mod_lt _ (by decide)⟩))) 2 := by
  unfold val_main_v49
  rw [gather_apply, col2_apply]
  refine congrArg (fun m => xpad x0 b m 2) (Fin.ext ?_)
  show min (val_main_v48 (F := Ideal) x1 (ix3 e c (0 : Fin 1))).toInt.toNat 10000 = _
  rw [wrapped2_apply]
  rfl

/-- The third chain's weights, broadcast over the batch, at `(b, e, c)`: channel 2's weight of edge row `e`, column `c`. -/
theorem weights2_apply (x2 : (⟨S4x320000x16, .f32⟩ : BufTy).Contents (Elt Ideal)) (b : Fin 8) (e : Fin 320000) (c : Fin 16) :
    val_main_v53 (F := Ideal) x2 (ix3 b e c) = x2 (ix3 (2 : Fin 4) e c) := by
  rw [val_main_v53_apply, val_main_v52_apply, val_main_v51_apply, val_main_v50_apply]
  refine congrArg x2 (funext fun a => Fin.ext ?_)
  have he := e.isLt
  have hc := c.isLt
  match a with
  | ⟨0, _⟩ => show 2 + 0 = 2; rfl
  | ⟨1, _⟩ => show (e.val * 16 + c.val) / 16 % 320000 = e.val; omega
  | ⟨2, _⟩ => show (e.val * 16 + c.val) % 16 = c.val; omega

/-- One product of the third chain, at batch `b`, node `n`, window position `d`, column `c`. -/
theorem term2_apply (x0 : (⟨S8x10000x4, .f32⟩ : BufTy).Contents (Elt Ideal)) (x1 : (⟨S320000, .i32⟩ : BufTy).Contents (Elt Ideal)) (x2 : (⟨S4x320000x16, .f32⟩ : BufTy).Contents (Elt Ideal)) (b : Fin 8) (n : Fin 10000) (d : Fin 32) (c : Fin 16) :
    val_main_v55 (F := Ideal) x0 x1 x2 (ix4 b n d c) = term x0 x1 x2 b n c 2 d := by
  rw [val_main_v55_apply, val_main_v54_apply]
  have hi : idx_main_v55 (ix4 b n d c) = ix3 b (wPos n d) c := by
    funext a; refine Fin.ext ?_
    have hb := b.isLt
    have hn := n.isLt
    have hd := d.isLt
    have hc := c.isLt
    match a with
    | ⟨0, _⟩ => show (((b.val * 10000 + n.val) * 32 + d.val) * 16 + c.val) / 5120000 = b.val; omega
    | ⟨1, _⟩ => show (((b.val * 10000 + n.val) * 32 + d.val) * 16 + c.val) / 16 % 320000 = n.val * 32 + d.val; omega
    | ⟨2, _⟩ => show (((b.val * 10000 + n.val) * 32 + d.val) * 16 + c.val) % 16 = c.val; omega
  rw [hi, gathered2_apply, weights2_apply]
  unfold term
  have hp : (⟨((wPos n d).val * 16 + c.val) % 320000, Nat.mod_lt _ (by decide)⟩ : Fin 320000) = edgePos n d c := by
    refine Fin.ext ?_
    have hn := n.isLt
    have hd := d.isLt
    have hc := c.isLt
    show ((n.val * 32 + d.val) * 16 + c.val) % 320000 = n.val % 625 * 512 + d.val * 16 + c.val
    omega
  rw [hp]
  rfl

/-- The third chain's window sum at `(b, n, c)`: zero plus channel 2's window sum. -/
theorem chan2_apply (x0 : (⟨S8x10000x4, .f32⟩ : BufTy).Contents (Elt Ideal)) (x1 : (⟨S320000, .i32⟩ : BufTy).Contents (Elt Ideal)) (x2 : (⟨S4x320000x16, .f32⟩ : BufTy).Contents (Elt Ideal)) (b : Fin 8) (n : Fin 10000) (c : Fin 16) :
    val_main_v56 (F := Ideal) x0 x1 x2 (ix3 b n c) = 0 + chan x0 x1 x2 b n c 2 := by
  rw [val_main_v56_apply, val_main_cst_8_apply]
  unfold chan
  refine congrArg₂ (· + ·) Ideal.ofBits_zero_f32 (Finset.sum_congr rfl fun d _ => ?_)
  have hi : idx_main_v56 (ix3 b n c) d = ix4 b n d c := by
    funext a; match a with | ⟨0, _⟩ => rfl | ⟨1, _⟩ => rfl | ⟨2, _⟩ => rfl | ⟨3, _⟩ => rfl
  rw [hi, term2_apply]

/-! ### Input channel 3 -/

/-- Column 3 of the padded array, as a `[8, 10001]` array, at `(b, m)`. -/
theorem col3_apply (x0 : (⟨S8x10000x4, .f32⟩ : BufTy).Contents (Elt Ideal)) (b : Fin 8) (m : Fin 10001) :
    val_main_v59 (F := Ideal) x0 (ix2 b m) = xpad x0 b m 3 := by
  rw [val_main_v59_apply, val_main_v58_apply, ← pad_apply]
  refine congrArg (val_main_v1 (F := Ideal) x0) (funext fun a => Fin.ext ?_)
  have hb := b.isLt
  have hm := m.isLt
  match a with
  | ⟨0, _⟩ => show (b.val * 10001 + m.val) / 10001 = b.val; omega
  | ⟨1, _⟩ => show (b.val * 10001 + m.val) / 1 % 10001 = m.val; omega
  | ⟨2, _⟩ => show 3 + 0 = 3; rfl

/-- The wrapped neighbour table of the fourth chain at `(e, c, 0)`: the wrapped word `(16 e + c) mod 320000`. -/
theorem wrapped3_apply (x1 : (⟨S320000, .i32⟩ : BufTy).Contents (Elt Ideal)) (e : Fin 320000) (c : Fin 16) :
    val_main_v65 (F := Ideal) x1 (ix3 e c (0 : Fin 1))
      = wrapWord (x1 (ix1 ⟨(e.val * 16 + c.val) % 320000, Nat.mod_lt _ (by decide)⟩)) := by
  rw [val_main_v65_apply, val_main_v64_apply, val_main_v61_apply, val_main_v63_apply, val_main_v60_apply,
    val_main_c_9_apply, val_main_v62_apply, val_main_c_10_apply]
  have hi : idx_main_v65 (ix3 e c (0 : Fin 1)) = ix2 e c := by
    funext a; match a with | ⟨0, _⟩ => rfl | ⟨1, _⟩ => rfl
  rw [hi, table_apply]
  rfl

/-- The fourth chain's gathered column at `(b, e, c)`: the padded array's channel 3 at the node the table's word selects. -/
theorem gathered3_apply (x0 : (⟨S8x10000x4, .f32⟩ : BufTy).Contents (Elt Ideal)) (x1 : (⟨S320000, .i32⟩ : BufTy).Contents (Elt Ideal)) (b : Fin 8) (e : Fin 320000) (c : Fin 16) :
    val_main_v66 (F := Ideal) x0 x1 (ix3 b e c)
      = xpad x0 b (node (x1 (ix1 ⟨(e.val * 16 + c.val) % 320000, Nat.mod_lt _ (by decide)⟩))) 3 := by
  unfold val_main_v66
  rw [gather_apply, col3_apply]
  refine congrArg (fun m => xpad x0 b m 3) (Fin.ext ?_)
  show min (val_main_v65 (F := Ideal) x1 (ix3 e c (0 : Fin 1))).toInt.toNat 10000 = _
  rw [wrapped3_apply]
  rfl

/-- The fourth chain's weights, broadcast over the batch, at `(b, e, c)`: channel 3's weight of edge row `e`, column `c`. -/
theorem weights3_apply (x2 : (⟨S4x320000x16, .f32⟩ : BufTy).Contents (Elt Ideal)) (b : Fin 8) (e : Fin 320000) (c : Fin 16) :
    val_main_v70 (F := Ideal) x2 (ix3 b e c) = x2 (ix3 (3 : Fin 4) e c) := by
  rw [val_main_v70_apply, val_main_v69_apply, val_main_v68_apply, val_main_v67_apply]
  refine congrArg x2 (funext fun a => Fin.ext ?_)
  have he := e.isLt
  have hc := c.isLt
  match a with
  | ⟨0, _⟩ => show 3 + 0 = 3; rfl
  | ⟨1, _⟩ => show (e.val * 16 + c.val) / 16 % 320000 = e.val; omega
  | ⟨2, _⟩ => show (e.val * 16 + c.val) % 16 = c.val; omega

/-- One product of the fourth chain, at batch `b`, node `n`, window position `d`, column `c`. -/
theorem term3_apply (x0 : (⟨S8x10000x4, .f32⟩ : BufTy).Contents (Elt Ideal)) (x1 : (⟨S320000, .i32⟩ : BufTy).Contents (Elt Ideal)) (x2 : (⟨S4x320000x16, .f32⟩ : BufTy).Contents (Elt Ideal)) (b : Fin 8) (n : Fin 10000) (d : Fin 32) (c : Fin 16) :
    val_main_v72 (F := Ideal) x0 x1 x2 (ix4 b n d c) = term x0 x1 x2 b n c 3 d := by
  rw [val_main_v72_apply, val_main_v71_apply]
  have hi : idx_main_v72 (ix4 b n d c) = ix3 b (wPos n d) c := by
    funext a; refine Fin.ext ?_
    have hb := b.isLt
    have hn := n.isLt
    have hd := d.isLt
    have hc := c.isLt
    match a with
    | ⟨0, _⟩ => show (((b.val * 10000 + n.val) * 32 + d.val) * 16 + c.val) / 5120000 = b.val; omega
    | ⟨1, _⟩ => show (((b.val * 10000 + n.val) * 32 + d.val) * 16 + c.val) / 16 % 320000 = n.val * 32 + d.val; omega
    | ⟨2, _⟩ => show (((b.val * 10000 + n.val) * 32 + d.val) * 16 + c.val) % 16 = c.val; omega
  rw [hi, gathered3_apply, weights3_apply]
  unfold term
  have hp : (⟨((wPos n d).val * 16 + c.val) % 320000, Nat.mod_lt _ (by decide)⟩ : Fin 320000) = edgePos n d c := by
    refine Fin.ext ?_
    have hn := n.isLt
    have hd := d.isLt
    have hc := c.isLt
    show ((n.val * 32 + d.val) * 16 + c.val) % 320000 = n.val % 625 * 512 + d.val * 16 + c.val
    omega
  rw [hp]
  rfl

/-- The fourth chain's window sum at `(b, n, c)`: zero plus channel 3's window sum. -/
theorem chan3_apply (x0 : (⟨S8x10000x4, .f32⟩ : BufTy).Contents (Elt Ideal)) (x1 : (⟨S320000, .i32⟩ : BufTy).Contents (Elt Ideal)) (x2 : (⟨S4x320000x16, .f32⟩ : BufTy).Contents (Elt Ideal)) (b : Fin 8) (n : Fin 10000) (c : Fin 16) :
    val_main_v73 (F := Ideal) x0 x1 x2 (ix3 b n c) = 0 + chan x0 x1 x2 b n c 3 := by
  rw [val_main_v73_apply, val_main_cst_11_apply]
  unfold chan
  refine congrArg₂ (· + ·) Ideal.ofBits_zero_f32 (Finset.sum_congr rfl fun d _ => ?_)
  have hi : idx_main_v73 (ix3 b n c) d = ix4 b n d c := by
    funext a; match a with | ⟨0, _⟩ => rfl | ⟨1, _⟩ => rfl | ⟨2, _⟩ => rfl | ⟨3, _⟩ => rfl
  rw [hi, term3_apply]

/-- The reference's last stage, as a function of the three argument arrays, is `G`. -/
theorem ref_eq (x0 : (⟨S8x10000x4, .f32⟩ : BufTy).Contents (Elt Ideal)) (x1 : (⟨S320000, .i32⟩ : BufTy).Contents (Elt Ideal))
    (x2 : (⟨S4x320000x16, .f32⟩ : BufTy).Contents (Elt Ideal)) :
    val_main_v74 (F := Ideal) x0 x1 x2 = G x0 x1 x2 := by
  funext j
  obtain ⟨b, n, c, rfl⟩ : ∃ (b : Fin 8) (n : Fin 10000) (c : Fin 16), j = ix3 b n c := ⟨j 0, j 1, j 2, eq_ix3 j⟩
  -- the four additions onto the zero array, each a sum of extended reals
  rw [val_main_v74_apply, val_main_v57_apply, val_main_v40_apply, val_main_v23_apply, val_main_v6_apply,
    val_main_cst_0_apply, chan0_apply, chan1_apply, chan2_apply, chan3_apply, G_apply]
  show ((((Ideal.ofBits .f32 0x00000000#32 : EReal) + (0 + chan x0 x1 x2 b n c 0)) + (0 + chan x0 x1 x2 b n c 1))
      + (0 + chan x0 x1 x2 b n c 2)) + (0 + chan x0 x1 x2 b n c 3) = Gc x0 x1 x2 b n c
  rw [Ideal.ofBits_zero_f32]
  unfold Gc
  simp only [zero_add]

end Cert.ReferenceIdeal.RefValue

end
-- ==== Proof.KPrefix.lean ====
/-
  The two arrays the region finds, read at an index from the argument arrays.

  Before the region the host pads `x` with a zero row, moves the input-channel axis to the front, gathers along the
  padded node axis at the (wrapped) neighbour words, replacing an entry whose wrapped word fails the range test
  `0 ≤ · ≤ 10000` by a fill value, and reshapes the result `[4, 8, 320000]` to `[4, 8, 625, 32, 16]`; and it reshapes the
  weights `[4, 320000, 16]` to `[4, 16, 625, 32, 16]`. Row-major, position `(mm, d, cc)` of the last three axes of the
  first is flat position `512 mm + 16 d + cc`, and position `(k, mm, d)` of the middle axes of the second is edge row
  `32 (625 k + mm) + d`. With every neighbour word in range the test always succeeds, so the fill is never taken.
-/
import proofs.«417479_j13357348290890_2_alg».proof.Proof.Gen.KernelIdeal.Frame
import proofs.«417479_j13357348290890_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.Prefix

open Idealize.ShloMosaic Idealize.ShloMosaic.TcCoe Idealize.ShloMosaic.ValueIdx Idealize.SL.Sem
open Cert.KernelIdeal Cert.KernelIdeal.Gen Cert.GnnSpec

variable (m : (ℓ : Loc nD τ sig) → Buf (Elt Ideal) ℓ)

/-- The flat neighbour position of `(mm, d, cc)`. -/
def flatPos (mm : Fin 625) (d : Fin 32) (cc : Fin 16) : Fin 320000 := ⟨mm.val * 512 + d.val * 16 + cc.val, by omega⟩

/-- The edge row of `(k, mm, d)`. -/
def rowPos (k : Fin 16) (mm : Fin 625) (d : Fin 32) : Fin 320000 := ⟨(k.val * 625 + mm.val) * 32 + d.val, by omega⟩

/-! ## The host's arrays as functions of the argument arrays -/

/-- The start indices of the gather: the wrapped neighbour words, as a column. -/
def startCol (x1 : IVec S320000 32) : IVec S320000x1 32 :=
  broadcastInDim S320000x1 ![0] bcast_S320000_S320000x1_0
    (select (cmpi .slt x1 (broadcastInDim S320000 ![] bcast_S_S320000 (constantI S_ 32 0#32)))
      (addi x1 (broadcastInDim S320000 ![] bcast_S_S320000 (constantI S_ 32 10001#32))) x1)

/-- The range test `0 ≤ · ≤ 10000` on the start indices, and-reduced over the column's unit axis. -/
def passVec (x1 : IVec S320000 32) : IVec S320000 1 :=
  Host.reduce IntOp.andi
    (andi (cmpi .sge (startCol x1) (broadcastInDim S320000x1 ![] bcast_S_S320000x1 (constantI S_ 32 0#32)))
      (cmpi .sle (startCol x1) (broadcastInDim S320000x1 ![0, 1] bcast_S1x1_S320000x1_0_1
        (broadcastInDim S1x1 ![1] bcast_S1_S1x1_1 (constantI S1 32 10000#32)))))
    (constantI S_ 1 1#1) reducesTo_S320000x1_S320000_d1 h_S_

/-- `x` padded with a zero row on the node axis, the input-channel axis moved to the front. -/
def xT (x0 : FVec Ideal S8x10000x4 .f32) : FVec Ideal S4x8x10001 .f32 :=
  transpose S4x8x10001 [2, 0, 1]
    (concatenate S8x10001x4 1
      [⟨S8x10000x4, x0⟩, ⟨S8x1x4, broadcastInDim S8x1x4 ![] bcast_S_S8x1x4 (constant (F := Ideal) S_ .f32 0x00000000#32)⟩]
      concatenates_S8x10000x4_S8x1x4_S8x10001x4_d1)
    transposes_S8x10001x4_S4x8x10001_2_0_1

/-- The gathered array with the entries whose start index fails the range test replaced by the fill value. -/
def taken (x0 : FVec Ideal S8x10000x4 .f32) (x1 : IVec S320000 32) : FVec Ideal S4x8x320000 .f32 :=
  select (broadcastInDim S4x8x320000 ![2] bcast_S320000_S4x8x320000_2 (passVec x1))
    (Host.gather gather_S4x8x10001_S320000x1_S4x8x320000_01_2_n_n_2_1_481 (xT x0) (startCol x1))
    (broadcastInDim S4x8x320000 ![] bcast_S_S4x8x320000 (constant (F := Ideal) S_ .f32 0x7FC00000#32))

/-! ## The padded, transposed `x` at an index -/

/-- At `(i, b, n)` the padded and transposed `x` is the padded `x` at `(b, n, i)`: row `n` of `x` below the extent,
    the zero row at the extent. -/
theorem xT_apply (x0 : FVec Ideal S8x10000x4 .f32) (i : Fin 4) (b : Fin 8) (n : Fin 10001) :
    (xT x0 (ix3 i b n) : EReal) = xpad x0 b n i := by
  unfold xT
  -- the transpose [2, 0, 1]: result axis 0 is source axis 2, result axis 1 source axis 0, result axis 2 source axis 1
  refine (transpose_apply (s := S8x10001x4) (t := S4x8x10001) _ _ _ (ix3 i b n) (ix3 b n i)
    (fun a => match a with | ⟨0, _⟩ => rfl | ⟨1, _⟩ => rfl | ⟨2, _⟩ => rfl)).trans ?_
  unfold xpad
  by_cases h : n.val < 10000
  · -- a row of `x`
    rw [dif_pos h]
    exact concatenate_pair_apply_left (t := S8x10001x4) (s₁ := S8x10000x4) (s₂ := S8x1x4) 1 _ _ _ (ix3 b n i) rfl
      (ix3 b ⟨n.val, h⟩ i) (fun a => match a with | ⟨0, _⟩ => rfl | ⟨1, _⟩ => rfl | ⟨2, _⟩ => rfl)
  · -- the zero row
    rw [dif_neg h]
    refine (concatenate_pair_apply_right (t := S8x10001x4) (s₁ := S8x10000x4) (s₂ := S8x1x4) 1 _ _ _ (ix3 b n i) rfl rfl
      (ix3 b (0 : Fin 1) i)
      (fun a => match a with
        | ⟨0, _⟩ => fun _ => rfl
        | ⟨1, _⟩ => fun hne => absurd rfl hne
        | ⟨2, _⟩ => fun _ => rfl)
      (by show (0 : Nat) + 10000 = n.val; have := n.isLt; omega)).trans ?_
    exact Ideal.ofBits_zero_f32

/-! ## The gather at an index -/

/-- The gather's dimension numbers: offset axes 0 and 1, operand axis 2 collapsed and indexed by the one component
    of the start index. At `(i, b, p)` it reads the operand at `(i, b, ·)` with the start index of row `p`, read
    signed and clamped into `[0, 10000]`, on axis 2. -/
theorem gather_apply {α : Type} (xt : S4x8x10001.Idx → α) (idx : IVec S320000x1 32)
    (i : Fin 4) (b : Fin 8) (p : Fin 320000) :
    Host.gather gather_S4x8x10001_S320000x1_S4x8x320000_01_2_n_n_2_1_481 xt idx (ix3 i b p)
      = xt (ix3 i b ⟨min (idx (ix2 p (0 : Fin 1))).toInt.toNat 10000, by omega⟩) := by
  unfold Host.gather
  congr 1
  funext a
  refine Fin.ext ?_
  match a with
  | ⟨0, _⟩ =>
    -- an offset axis: no start component, no batching, the result's coordinate on offset axis 0
    show GatherDims.start gather_S4x8x10001_S320000x1_S4x8x320000_01_2_n_n_2_1_481 (ix3 i b p) idx 0
        + GatherDims.batchCoord gather_S4x8x10001_S320000x1_S4x8x320000_01_2_n_n_2_1_481 (ix3 i b p) 0
        + GatherDims.offCoord gather_S4x8x10001_S320000x1_S4x8x320000_01_2_n_n_2_1_481 (ix3 i b p) 0 = i.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show GatherDims.start gather_S4x8x10001_S320000x1_S4x8x320000_01_2_n_n_2_1_481 (ix3 i b p) idx 1
        + GatherDims.batchCoord gather_S4x8x10001_S320000x1_S4x8x320000_01_2_n_n_2_1_481 (ix3 i b p) 1
        + GatherDims.offCoord gather_S4x8x10001_S320000x1_S4x8x320000_01_2_n_n_2_1_481 (ix3 i b p) 1 = b.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨2, _⟩ =>
    -- the collapsed axis: the start index's one component, clamped; no batching, no offset
    show GatherDims.start gather_S4x8x10001_S320000x1_S4x8x320000_01_2_n_n_2_1_481 (ix3 i b p) idx 2
        + GatherDims.batchCoord gather_S4x8x10001_S320000x1_S4x8x320000_01_2_n_n_2_1_481 (ix3 i b p) 2
        + GatherDims.offCoord gather_S4x8x10001_S320000x1_S4x8x320000_01_2_n_n_2_1_481 (ix3 i b p) 2
      = min (idx (ix2 p (0 : Fin 1))).toInt.toNat 10000
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S4x8x10001_S320000x1_S4x8x320000_01_2_n_n_2_1_481.startIndexMap
      from List.mem_singleton.mpr rfl)]
    have hsi : GatherDims.siIdx gather_S4x8x10001_S320000x1_S4x8x320000_01_2_n_n_2_1_481 (ix3 i b p)
        ⟨List.idxOf (2 : Fin 3) gather_S4x8x10001_S320000x1_S4x8x320000_01_2_n_n_2_1_481.startIndexMap,
          List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl

/-! ## The start indices and the range test at an index -/

/-- Row `p` of the start indices is the wrapped neighbour word `p`. -/
theorem startCol_apply (x1 : IVec S320000 32) (p : Fin 320000) (z : Fin 1) :
    startCol x1 (ix2 p z) = wrapWord (x1 (ix1 p)) := by
  unfold startCol
  -- the column reads the vector at its row: the vector's one axis has extent 320000, not one
  refine (broadcastInDim_apply (s := S320000) (t := S320000x1) _ _ _ (ix2 p z) (ix1 p)
    (fun a => match a with | ⟨0, _⟩ => (if_neg (show ¬ (320000 : Nat) = 1 by decide)).symm)).trans ?_
  rfl

/-- An and-fold from `1` over words that are all `1` is `1`. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- With every neighbour word in range the range test succeeds at every position. -/
theorem passVec_apply (x1 : IVec S320000 32) (hr : InRange x1) (j : S320000.Idx) : passVec x1 j = 1#1 := by
  unfold passVec
  rw [Host.reduce_eq_foldl]
  refine foldl_andi_one _ _ (fun q _ => ?_)
  -- an index of the column is a row and the unit coordinate
  obtain ⟨p, z, rfl⟩ : ∃ p z, q = ix2 p z := ⟨q 0, q 1, eq_ix2 q⟩
  obtain ⟨h1, h2⟩ := pass_of_inRange (x1 (ix1 p)) (hr (ix1 p)).1 (hr (ix1 p)).2
  show IntOp.andi (IntOp.cmpi .sge (startCol x1 (ix2 p z)) 0#32) (IntOp.cmpi .sle (startCol x1 (ix2 p z)) 10000#32) = 1#1
  rw [startCol_apply, h1, h2]
  rfl

/-! ## The gathered array at an index -/

/-- With every neighbour word in range the gathered array at `(i, b, p)` is the padded `x` at batch `b`, the node
    word `p` selects, input channel `i`: the range test is `1` there, so the select takes the gathered entry. -/
theorem taken_apply (x0 : FVec Ideal S8x10000x4 .f32) (x1 : IVec S320000 32) (hr : InRange x1)
    (i : Fin 4) (b : Fin 8) (p : Fin 320000) :
    (taken x0 x1 (ix3 i b p) : EReal) = xpad x0 b (node (x1 (ix1 p))) i := by
  unfold taken
  rw [select_apply]
  -- the test laid along the last axis reads the test at position `p`
  have hm : broadcastInDim S4x8x320000 ![2] bcast_S320000_S4x8x320000_2 (passVec x1) (ix3 i b p) = 1#1 :=
    (broadcastInDim_apply (s := S320000) (t := S4x8x320000) _ _ _ (ix3 i b p) (ix1 p)
      (fun a => match a with | ⟨0, _⟩ => (if_neg (show ¬ (320000 : Nat) = 1 by decide)).symm)).trans
      (passVec_apply x1 hr _)
  rw [hm, select_one, gather_apply]
  -- the clamped start index of row `p` is the node the neighbour word selects
  have e : (⟨min (startCol x1 (ix2 p (0 : Fin 1))).toInt.toNat 10000, by omega⟩ : Fin 10001) = node (x1 (ix1 p)) :=
    Fin.ext (congrArg (fun w : BitVec 32 => min w.toInt.toNat 10000) (startCol_apply x1 p 0))
  rw [e]
  exact xT_apply x0 i b (node (x1 (ix1 p)))

/-! ## The two arrays as functions of the argument arrays -/

/-- The first array the region finds is the gathered array, reshaped. -/
theorem v4_closed (c : Dev nD) :
    (V m c main_v4 : S4x8x625x32x16.Idx → EReal)
      = shapeCast S4x8x625x32x16 (taken (m ((c.tc : Thread nD τ).loc main_arg0)) (m ((c.tc : Thread nD τ).loc main_arg1)))
          shapeCasts_S4x8x320000_S4x8x625x32x16 := by
  dsimp only [Gen.V, Gen.V0]
  simp only [Gen.hostOps0, Gen.hostOps0_1, Gen.hostOps0_2, List.flatten_cons, List.flatten_nil, List.append_nil,
    List.cons_append, List.nil_append]
  after_results_simp
  simp only [StableHlo.TRef.toBuf, StableHlo.TRef.ofBuf, cast_eq]
  -- the two pieces of the concatenation: the zero row is the broadcast constant, `x` is as launched
  rw [StableHlo.unary_result]
  rw [StableHlo.unary_result_ne]; rotate_left; decide
  rw [StableHlo.nullary_result]
  rw [StableHlo.nullary_result_ne]; rotate_left; decide
  rfl

/-- The second is the weights, reshaped. -/
theorem v5_closed (c : Dev nD) :
    (V m c main_v5 : S4x16x625x32x16.Idx → EReal)
      = shapeCast S4x16x625x32x16 (m ((c.tc : Thread nD τ).loc main_arg2) : S4x320000x16.Idx → EReal)
          shapeCasts_S4x320000x16_S4x16x625x32x16 := by
  dsimp only [Gen.V, Gen.V0]
  simp only [Gen.hostOps0, Gen.hostOps0_1, Gen.hostOps0_2, List.flatten_cons, List.flatten_nil, List.append_nil,
    List.cons_append, List.nil_append]
  after_results
  rfl

/-! ## The two arrays at an index -/

/-- The gathered array the region finds: the padded `x` at the node the neighbour word selects. -/
theorem xg_apply (c : Dev nD) (hr : InRange (m ((c.tc : Thread nD τ).loc main_arg1)))
    (i : Fin 4) (b : Fin 8) (mm : Fin 625) (d : Fin 32) (cc : Fin 16) :
    ((V m c main_v4 : S4x8x625x32x16.Idx → EReal) (ix5 i b mm d cc))
      = xpad (m ((c.tc : Thread nD τ).loc main_arg0)) b
          (node (m ((c.tc : Thread nD τ).loc main_arg1) (ix1 (flatPos mm d cc)))) i := by
  rw [v4_closed]
  -- row-major, position (mm, d, cc) of the last three axes is flat position 512 mm + 16 d + cc
  refine (shapeCast_apply (s := S4x8x320000) (t := S4x8x625x32x16) _ _ (ix5 i b mm d cc) (ix3 i b (flatPos mm d cc)) ?_).trans
    (taken_apply _ _ hr i b (flatPos mm d cc))
  show ((⟨3, ![4, 8, 320000]⟩ : Shape).rowMajor (ix3 i b (flatPos mm d cc))).val
    = ((⟨5, ![4, 8, 625, 32, 16]⟩ : Shape).rowMajor (ix5 i b mm d cc)).val
  rw [Shape.rowMajor_val_three, Shape.rowMajor_val_five]
  show (i.val * 8 + b.val) * 320000 + (mm.val * 512 + d.val * 16 + cc.val)
    = (((i.val * 8 + b.val) * 625 + mm.val) * 32 + d.val) * 16 + cc.val
  omega

/-- The reshaped weights the region finds. -/
theorem w2_apply (c : Dev nD) (i : Fin 4) (k : Fin 16) (mm : Fin 625) (d : Fin 32) (cc : Fin 16) :
    ((V m c main_v5 : S4x16x625x32x16.Idx → EReal) (ix5 i k mm d cc))
      = (m ((c.tc : Thread nD τ).loc main_arg2) : S4x320000x16.Idx → EReal) (ix3 i (rowPos k mm d) cc) := by
  rw [v5_closed]
  -- row-major, position (k, mm, d) of the middle axes is edge row 32 (625 k + mm) + d
  refine shapeCast_apply (s := S4x320000x16) (t := S4x16x625x32x16) _ _ _ _ ?_
  show ((⟨3, ![4, 320000, 16]⟩ : Shape).rowMajor (ix3 i (rowPos k mm d) cc)).val
    = ((⟨5, ![4, 16, 625, 32, 16]⟩ : Shape).rowMajor (ix5 i k mm d cc)).val
  rw [Shape.rowMajor_val_three, Shape.rowMajor_val_five]
  show (i.val * 320000 + ((k.val * 625 + mm.val) * 32 + d.val)) * 16 + cc.val
    = (((i.val * 16 + k.val) * 625 + mm.val) * 32 + d.val) * 16 + cc.val
  omega

end Cert.KernelIdeal.Prefix

end
-- ==== Proof.KPayload.lean ====
/-
  What one grid point's body leaves in the output block, index by index.

  The body holds a block of the gathered array, `x0 : [4, 8, 5, 32, 16]` (input channel, batch, node-in-block, neighbour,
  channel), and a block of the reshaped weights, `x1 : [4, 16, 5, 32, 16]` (input channel, node group, node-in-block,
  neighbour, channel). It starts from zero and, for each input channel in turn, adds the sum over the 32 neighbours of
  weight times gathered entry; the result `[16, 8, 5, 16]` is stored transposed as `[8, 5, 16, 16]` (batch,
  node-in-block, node group, channel). So entry `(b, mm, k, cc)` of the block is the four per-channel window sums
  added left to right (the leading zero is the unit of addition on the extended reals).
-/
import proofs.«417479_j13357348290890_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Payload

open Idealize.ShloMosaic Idealize.ShloMosaic.ValueIdx Cert.KernelIdeal Cert.KernelIdeal.Gen

/-- One input channel's window sum inside a block: over the 32 neighbours, weight times gathered entry. -/
def blockChan (x0 : Vec Ideal S4x8x5x32x16 .f32) (x1 : Vec Ideal S4x16x5x32x16 .f32)
    (b : Fin 8) (mm : Fin 5) (k : Fin 16) (cc : Fin 16) (i : Fin 4) : EReal :=
  ∑ d : Fin 32, (x1 (ix5 i k mm d cc) : EReal) * (x0 (ix5 i b mm d cc) : EReal)

/-- The weights slab `[1, 16, 5, 32, 16]` viewed `[16, 1, 5, 32, 16]` and repeated along the batch axis, read at
    (node group `k`, batch `b`, node `mm`, neighbour `d`, channel `cc`): the slab at `(0, k, mm, d, cc)`; the
    two views keep the row-major position. -/
theorem wslab_apply (w : Vec Ideal S1x16x5x32x16 .f32) (k : Fin 16) (b : Fin 8) (mm : Fin 5) (d : Fin 32) (cc : Fin 16) :
    broadcastTo S16x8x5x32x16 (shapeCast S16x1x5x32x16 (shapeCast S16x5x32x16 w shapeCasts_S1x16x5x32x16_S16x5x32x16)
      shapeCasts_S16x5x32x16_S16x1x5x32x16) broadcasts_S16x1x5x32x16_S16x8x5x32x16 (ix5 k b mm d cc)
      = w (ix5 0 k mm d cc) := by
  refine (broadcastTo_apply _ _ (ix5 k b mm d cc) (ix5 k 0 mm d cc) ?_).trans ?_
  · intro a
    match a with
    | ⟨0, _⟩ => rfl
    | ⟨1, _⟩ => rfl
    | ⟨2, _⟩ => rfl
    | ⟨3, _⟩ => rfl
    | ⟨4, _⟩ => rfl
  refine (shapeCast_apply _ _ (ix5 k 0 mm d cc) (ix4 k mm d cc) ?_).trans ?_
  · rw [Shape.rowMajor_val_five, Shape.rowMajor_val_four]
    show ((k.val * 5 + mm.val) * 32 + d.val) * 16 + cc.val
      = (((k.val * 1 + 0) * 5 + mm.val) * 32 + d.val) * 16 + cc.val
    omega
  refine (shapeCast_apply _ _ (ix4 k mm d cc) (ix5 0 k mm d cc) ?_).trans rfl
  rw [Shape.rowMajor_val_five, Shape.rowMajor_val_four]
  show (((0 * 16 + k.val) * 5 + mm.val) * 32 + d.val) * 16 + cc.val
      = ((k.val * 5 + mm.val) * 32 + d.val) * 16 + cc.val
  omega

/-- The gathered slab `[1, 8, 5, 32, 16]` viewed `[8, 5, 32, 16]` and back, then repeated along the node-group axis,
    read at `(k, b, mm, d, cc)`: the slab at `(0, b, mm, d, cc)`. -/
theorem gslab_apply (g : Vec Ideal S1x8x5x32x16 .f32) (k : Fin 16) (b : Fin 8) (mm : Fin 5) (d : Fin 32) (cc : Fin 16) :
    broadcastTo S16x8x5x32x16 (shapeCast S1x8x5x32x16 (shapeCast S8x5x32x16 g shapeCasts_S1x8x5x32x16_S8x5x32x16)
      shapeCasts_S8x5x32x16_S1x8x5x32x16) broadcasts_S1x8x5x32x16_S16x8x5x32x16 (ix5 k b mm d cc)
      = g (ix5 0 b mm d cc) := by
  refine (broadcastTo_apply _ _ (ix5 k b mm d cc) (ix5 0 b mm d cc) ?_).trans ?_
  · intro a
    match a with
    | ⟨0, _⟩ => rfl
    | ⟨1, _⟩ => rfl
    | ⟨2, _⟩ => rfl
    | ⟨3, _⟩ => rfl
    | ⟨4, _⟩ => rfl
  rw [shapeCast_shapeCast]

/-- One input channel's contribution as the body computes it: the product of the two repeated slabs (weights first),
    summed over the neighbour axis. -/
def chanVec (w : Vec Ideal S1x16x5x32x16 .f32) (g : Vec Ideal S1x8x5x32x16 .f32) : FVec Ideal S16x8x5x16 .f32 :=
  multiReduction .add [3] S16x8x5x16
    (mulf
      (broadcastTo S16x8x5x32x16 (shapeCast S16x1x5x32x16 (shapeCast S16x5x32x16 w shapeCasts_S1x16x5x32x16_S16x5x32x16)
        shapeCasts_S16x5x32x16_S16x1x5x32x16) broadcasts_S16x1x5x32x16_S16x8x5x32x16)
      (broadcastTo S16x8x5x32x16 (shapeCast S1x8x5x32x16 (shapeCast S8x5x32x16 g shapeCasts_S1x8x5x32x16_S8x5x32x16)
        shapeCasts_S8x5x32x16_S1x8x5x32x16) broadcasts_S1x8x5x32x16_S16x8x5x32x16))
    0x00000000#32 reduces_S16x8x5x32x16_S16x8x5x16 (.inl rfl) rfl

/-- The reduced index `(k, b, mm, cc)` with neighbour `d` put back on axis 3 is `(k, b, mm, d, cc)`. -/
theorem lift_ix4 (k : Fin 16) (b : Fin 8) (mm : Fin 5) (cc : Fin 16) (d : Fin 32) :
    reduces_S16x8x5x32x16_S16x8x5x16.lift (ix4 k b mm cc) d = ix5 k b mm d cc := by
  funext a
  refine Fin.ext ?_
  match a with
  | ⟨0, _⟩ => rfl
  | ⟨1, _⟩ => rfl
  | ⟨2, _⟩ => rfl
  | ⟨3, _⟩ => rfl
  | ⟨4, _⟩ => rfl

/-- Read at `(k, b, mm, cc)`: the sum over the 32 neighbours of weight times gathered entry. -/
theorem chanVec_apply (w : Vec Ideal S1x16x5x32x16 .f32) (g : Vec Ideal S1x8x5x32x16 .f32)
    (k : Fin 16) (b : Fin 8) (mm : Fin 5) (cc : Fin 16) :
    (chanVec w g (ix4 k b mm cc) : EReal)
      = ∑ d : Fin 32, (w (ix5 0 k mm d cc) : EReal) * (g (ix5 0 b mm d cc) : EReal) := by
  unfold chanVec
  refine (Ideal.multiReduction_add_single _ _ reduces_S16x8x5x32x16_S16x8x5x16 _ _ (ix4 k b mm cc)).trans ?_
  refine Finset.sum_congr rfl fun (d : Fin 32) _ => ?_
  rw [lift_ix4 k b mm cc d, mulf_apply, wslab_apply, gslab_apply]

/-- The body's arithmetic as one term over its eight loaded slabs: zero, plus the four channels' contributions in turn,
    transposed to (batch, node, node group, channel). -/
theorem pay_eq (v1 : Vec Ideal S1x8x5x32x16 .f32) (v3 : Vec Ideal S1x16x5x32x16 .f32)
    (v12 : Vec Ideal S1x8x5x32x16 .f32) (v14 : Vec Ideal S1x16x5x32x16 .f32)
    (v23 : Vec Ideal S1x8x5x32x16 .f32) (v25 : Vec Ideal S1x16x5x32x16 .f32)
    (v34 : Vec Ideal S1x8x5x32x16 .f32) (v36 : Vec Ideal S1x16x5x32x16 .f32) :
    k0_pay1 (k0_pay2 v1 v3 v12 v14) (k0_pay3 v23) v25 v34 v36
      = transpose S8x5x16x16 [1, 2, 0, 3]
          (addf (addf (addf (addf (broadcast S16x8x5x16 (Scalar.ofBits .f32 0x00000000#32 : Ideal .f32))
            (chanVec v3 v1)) (chanVec v14 v12)) (chanVec v25 v23)) (chanVec v36 v34))
          transposes_S16x8x5x16_p1_2_0_3_S8x5x16x16 := rfl

/-- The zero word is the extended real zero. -/
theorem zero_word : ((Scalar.ofBits .f32 0x00000000#32 : Ideal .f32) : EReal) = 0 := Ideal.ofBits_zero_f32

/-- The arithmetic read at `(b, mm, k, cc)`: the transpose reads `(k, b, mm, cc)`, the additions are pointwise, the
    leading zero is the unit of addition. -/
theorem pay_apply (v1 : Vec Ideal S1x8x5x32x16 .f32) (v3 : Vec Ideal S1x16x5x32x16 .f32)
    (v12 : Vec Ideal S1x8x5x32x16 .f32) (v14 : Vec Ideal S1x16x5x32x16 .f32)
    (v23 : Vec Ideal S1x8x5x32x16 .f32) (v25 : Vec Ideal S1x16x5x32x16 .f32)
    (v34 : Vec Ideal S1x8x5x32x16 .f32) (v36 : Vec Ideal S1x16x5x32x16 .f32)
    (b : Fin 8) (mm : Fin 5) (k : Fin 16) (cc : Fin 16) :
    (k0_pay1 (k0_pay2 v1 v3 v12 v14) (k0_pay3 v23) v25 v34 v36 (ix4 b mm k cc) : EReal)
      = (chanVec v3 v1 (ix4 k b mm cc) : EReal) + (chanVec v14 v12 (ix4 k b mm cc) : EReal)
        + (chanVec v25 v23 (ix4 k b mm cc) : EReal) + (chanVec v36 v34 (ix4 k b mm cc) : EReal) := by
  rw [pay_eq]
  refine (transpose_apply _ _ _ (ix4 b mm k cc) (ix4 k b mm cc) ?_).trans ?_
  · intro a
    match a with
    | ⟨0, _⟩ => rfl
    | ⟨1, _⟩ => rfl
    | ⟨2, _⟩ => rfl
    | ⟨3, _⟩ => rfl
  rw [addf_apply, addf_apply, addf_apply, addf_apply, broadcast_apply, zero_word, zero_add]

/-! A load through the unit-leading rectangle at offset `(i, 0, 0, 0, 0)` reads, at `(0, p, mm, d, cc)`, the block at
    `(i, p, mm, d, cc)`: each coordinate is the offset plus the local coordinate. -/

theorem ld_x0_0 (x0 : Vec Ideal S4x8x5x32x16 .f32) (b : Fin 8) (mm : Fin 5) (d : Fin 32) (cc : Fin 16) :
    View.ld x0 r0_0 (ix5 0 b mm d cc) = x0 (ix5 0 b mm d cc) := by
  show x0 (r0_0.idx (ix5 0 b mm d cc)) = _
  refine congrArg x0 (funext fun a => Fin.ext ?_)
  match a with
  | ⟨0, _⟩ => rfl
  | ⟨1, _⟩ => show 0 + 1 * b.val = b.val; omega
  | ⟨2, _⟩ => show 0 + 1 * mm.val = mm.val; omega
  | ⟨3, _⟩ => show 0 + 1 * d.val = d.val; omega
  | ⟨4, _⟩ => show 0 + 1 * cc.val = cc.val; omega

theorem ld_x1_0 (x1 : Vec Ideal S4x16x5x32x16 .f32) (k : Fin 16) (mm : Fin 5) (d : Fin 32) (cc : Fin 16) :
    View.ld x1 r0_1 (ix5 0 k mm d cc) = x1 (ix5 0 k mm d cc) := by
  show x1 (r0_1.idx (ix5 0 k mm d cc)) = _
  refine congrArg x1 (funext fun a => Fin.ext ?_)
  match a with
  | ⟨0, _⟩ => rfl
  | ⟨1, _⟩ => show 0 + 1 * k.val = k.val; omega
  | ⟨2, _⟩ => show 0 + 1 * mm.val = mm.val; omega
  | ⟨3, _⟩ => show 0 + 1 * d.val = d.val; omega
  | ⟨4, _⟩ => show 0 + 1 * cc.val = cc.val; omega

theorem ld_x0_1 (x0 : Vec Ideal S4x8x5x32x16 .f32) (b : Fin 8) (mm : Fin 5) (d : Fin 32) (cc : Fin 16) :
    View.ld x0 r0_2 (ix5 0 b mm d cc) = x0 (ix5 1 b mm d cc) := by
  show x0 (r0_2.idx (ix5 0 b mm d cc)) = _
  refine congrArg x0 (funext fun a => Fin.ext ?_)
  match a with
  | ⟨0, _⟩ => rfl
  | ⟨1, _⟩ => show 0 + 1 * b.val = b.val; omega
  | ⟨2, _⟩ => show 0 + 1 * mm.val = mm.val; omega
  | ⟨3, _⟩ => show 0 + 1 * d.val = d.val; omega
  | ⟨4, _⟩ => show 0 + 1 * cc.val = cc.val; omega

theorem ld_x1_1 (x1 : Vec Ideal S4x16x5x32x16 .f32) (k : Fin 16) (mm : Fin 5) (d : Fin 32) (cc : Fin 16) :
    View.ld x1 r0_3 (ix5 0 k mm d cc) = x1 (ix5 1 k mm d cc) := by
  show x1 (r0_3.idx (ix5 0 k mm d cc)) = _
  refine congrArg x1 (funext fun a => Fin.ext ?_)
  match a with
  | ⟨0, _⟩ => rfl
  | ⟨1, _⟩ => show 0 + 1 * k.val = k.val; omega
  | ⟨2, _⟩ => show 0 + 1 * mm.val = mm.val; omega
  | ⟨3, _⟩ => show 0 + 1 * d.val = d.val; omega
  | ⟨4, _⟩ => show 0 + 1 * cc.val = cc.val; omega

theorem ld_x0_2 (x0 : Vec Ideal S4x8x5x32x16 .f32) (b : Fin 8) (mm : Fin 5) (d : Fin 32) (cc : Fin 16) :
    View.ld x0 r0_4 (ix5 0 b mm d cc) = x0 (ix5 2 b mm d cc) := by
  show x0 (r0_4.idx (ix5 0 b mm d cc)) = _
  refine congrArg x0 (funext fun a => Fin.ext ?_)
  match a with
  | ⟨0, _⟩ => rfl
  | ⟨1, _⟩ => show 0 + 1 * b.val = b.val; omega
  | ⟨2, _⟩ => show 0 + 1 * mm.val = mm.val; omega
  | ⟨3, _⟩ => show 0 + 1 * d.val = d.val; omega
  | ⟨4, _⟩ => show 0 + 1 * cc.val = cc.val; omega

theorem ld_x1_2 (x1 : Vec Ideal S4x16x5x32x16 .f32) (k : Fin 16) (mm : Fin 5) (d : Fin 32) (cc : Fin 16) :
    View.ld x1 r0_5 (ix5 0 k mm d cc) = x1 (ix5 2 k mm d cc) := by
  show x1 (r0_5.idx (ix5 0 k mm d cc)) = _
  refine congrArg x1 (funext fun a => Fin.ext ?_)
  match a with
  | ⟨0, _⟩ => rfl
  | ⟨1, _⟩ => show 0 + 1 * k.val = k.val; omega
  | ⟨2, _⟩ => show 0 + 1 * mm.val = mm.val; omega
  | ⟨3, _⟩ => show 0 + 1 * d.val = d.val; omega
  | ⟨4, _⟩ => show 0 + 1 * cc.val = cc.val; omega

theorem ld_x0_3 (x0 : Vec Ideal S4x8x5x32x16 .f32) (b : Fin 8) (mm : Fin 5) (d : Fin 32) (cc : Fin 16) :
    View.ld x0 r0_6 (ix5 0 b mm d cc) = x0 (ix5 3 b mm d cc) := by
  show x0 (r0_6.idx (ix5 0 b mm d cc)) = _
  refine congrArg x0 (funext fun a => Fin.ext ?_)
  match a with
  | ⟨0, _⟩ => rfl
  | ⟨1, _⟩ => show 0 + 1 * b.val = b.val; omega
  | ⟨2, _⟩ => show 0 + 1 * mm.val = mm.val; omega
  | ⟨3, _⟩ => show 0 + 1 * d.val = d.val; omega
  | ⟨4, _⟩ => show 0 + 1 * cc.val = cc.val; omega

theorem ld_x1_3 (x1 : Vec Ideal S4x16x5x32x16 .f32) (k : Fin 16) (mm : Fin 5) (d : Fin 32) (cc : Fin 16) :
    View.ld x1 r0_7 (ix5 0 k mm d cc) = x1 (ix5 3 k mm d cc) := by
  show x1 (r0_7.idx (ix5 0 k mm d cc)) = _
  refine congrArg x1 (funext fun a => Fin.ext ?_)
  match a with
  | ⟨0, _⟩ => rfl
  | ⟨1, _⟩ => show 0 + 1 * k.val = k.val; omega
  | ⟨2, _⟩ => show 0 + 1 * mm.val = mm.val; omega
  | ⟨3, _⟩ => show 0 + 1 * d.val = d.val; omega
  | ⟨4, _⟩ => show 0 + 1 * cc.val = cc.val; omega

/-- The output rectangle's offset is zero on every axis. -/
theorem hz4 : (![0, 0, 0, 0] : Fin 4 → Nat) = fun _ => 0 := funext fun a => by
  match a with
  | ⟨0, _⟩ => rfl
  | ⟨1, _⟩ => rfl
  | ⟨2, _⟩ => rfl
  | ⟨3, _⟩ => rfl

/-- The block the body stores, read at `(b, mm, k, cc)`. -/
theorem out_apply (x0 : Vec Ideal S4x8x5x32x16 .f32) (x1 : Vec Ideal S4x16x5x32x16 .f32)
    (b : Fin 8) (mm : Fin 5) (k : Fin 16) (cc : Fin 16) :
    (out0_2 (F := Ideal) x0 x1 (ix4 b mm k cc) : EReal)
      = blockChan x0 x1 b mm k cc 0 + blockChan x0 x1 b mm k cc 1 + blockChan x0 x1 b mm k cc 2
        + blockChan x0 x1 b mm k cc 3 := by
  unfold out0_2
  -- one store of the whole block: the buffer holds its payload
  rw [View.canon_unit_zero hz4]
  refine (pay_apply _ _ _ _ _ _ _ _ b mm k cc).trans ?_
  rw [chanVec_apply, chanVec_apply, chanVec_apply, chanVec_apply]
  unfold blockChan
  -- channel by channel, neighbour by neighbour, the two loaded slabs are the blocks at that channel
  refine congrArg₂ (· + ·) (congrArg₂ (· + ·) (congrArg₂ (· + ·) ?_ ?_) ?_) ?_
  · exact Finset.sum_congr rfl fun d _ => congrArg₂ (· * ·) (ld_x1_0 x1 k mm d cc) (ld_x0_0 x0 b mm d cc)
  · exact Finset.sum_congr rfl fun d _ => congrArg₂ (· * ·) (ld_x1_1 x1 k mm d cc) (ld_x0_1 x0 b mm d cc)
  · exact Finset.sum_congr rfl fun d _ => congrArg₂ (· * ·) (ld_x1_2 x1 k mm d cc) (ld_x0_2 x0 b mm d cc)
  · exact Finset.sum_congr rfl fun d _ => congrArg₂ (· * ·) (ld_x1_3 x1 k mm d cc) (ld_x0_3 x0 b mm d cc)

end Cert.KernelIdeal.Payload

end
-- ==== Proof.KBlocks.lean ====
/-
  From what each grid point writes back to the whole output array of the region.

  The grid has 125 points; point `t` holds nodes-in-group `5 t … 5 t + 4`: its block of the gathered array is
  `[:, :, 5 t + mm, :, :]`, of the reshaped weights likewise, and it writes back block `[:, 5 t + mm, :, :]` of the output
  `[8, 625, 16, 16]` (batch, node-in-group, node group, channel). Every block entry is the same function of the two whole
  arrays at the shifted index (`out3`), and the 125 blocks tile the node-in-group axis, so the array ends holding `out3`.
-/
import proofs.«417479_j13357348290890_2_alg».proof.Proof.Gen.KernelIdeal.Frame
import proofs.«417479_j13357348290890_2_alg».proof.Proof.KPayload
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payload

variable (m : (ℓ : Loc nD τ sig) → Buf (Elt Ideal) ℓ)

/-- The gathered array as the region finds it. -/
abbrev xgArr (c : Dev nD) : Vec Ideal S4x8x625x32x16 .f32 := V m c (Pipeline.arrRef spec0 0)
/-- The reshaped weights as the region finds them. -/
abbrev w2Arr (c : Dev nD) : Vec Ideal S4x16x625x32x16 .f32 := V m c (Pipeline.arrRef spec0 1)

/-- One input channel's window sum over the whole arrays: over the 32 neighbours, weight times gathered entry. -/
def arrChan (xg : Vec Ideal S4x8x625x32x16 .f32) (w2 : Vec Ideal S4x16x625x32x16 .f32)
    (b : Fin 8) (mn : Fin 625) (k : Fin 16) (cc : Fin 16) (i : Fin 4) : EReal :=
  ∑ d : Fin 32, (w2 (ix5 i k mn d cc) : EReal) * (xg (ix5 i b mn d cc) : EReal)

/-- The region's output by coordinates: the four channels' window sums, added left to right. -/
def out3c (xg : Vec Ideal S4x8x625x32x16 .f32) (w2 : Vec Ideal S4x16x625x32x16 .f32)
    (b : Fin 8) (mn : Fin 625) (k : Fin 16) (cc : Fin 16) : EReal :=
  arrChan xg w2 b mn k cc 0 + arrChan xg w2 b mn k cc 1 + arrChan xg w2 b mn k cc 2 + arrChan xg w2 b mn k cc 3

/-- The region's output array. -/
def out3 (xg : Vec Ideal S4x8x625x32x16 .f32) (w2 : Vec Ideal S4x16x625x32x16 .f32) : Vec Ideal S8x625x16x16 .f32 :=
  fun j => out3c xg w2 (j 0) (j 1) (j 2) (j 3)

theorem out3_apply (xg : Vec Ideal S4x8x625x32x16 .f32) (w2 : Vec Ideal S4x16x625x32x16 .f32)
    (b : Fin 8) (mn : Fin 625) (k : Fin 16) (cc : Fin 16) : out3 xg w2 (ix4 b mn k cc) = out3c xg w2 b mn k cc := rfl

/-- The printed index maps over the grid: every window's block index is the point on the node-in-group axis and zero on
    the others. -/
theorem idx_facts : ∀ t : Fin cfg0.N,
    (win0_0.index t (0 : Fin 5) = 0 ∧ win0_0.index t (1 : Fin 5) = 0 ∧ win0_0.index t (2 : Fin 5) = t.val
      ∧ win0_0.index t (3 : Fin 5) = 0 ∧ win0_0.index t (4 : Fin 5) = 0)
    ∧ (win0_1.index t (0 : Fin 5) = 0 ∧ win0_1.index t (1 : Fin 5) = 0 ∧ win0_1.index t (2 : Fin 5) = t.val
      ∧ win0_1.index t (3 : Fin 5) = 0 ∧ win0_1.index t (4 : Fin 5) = 0)
    ∧ (win0_2.index t (0 : Fin 4) = 0 ∧ win0_2.index t (1 : Fin 4) = t.val ∧ win0_2.index t (2 : Fin 4) = 0
      ∧ win0_2.index t (3 : Fin 4) = 0) :=
  (by decide +kernel : ∀ t : Fin grid0.N, _)

/-- Node-in-group `5 t + mm`. -/
def shifted (t : Fin cfg0.N) (mm : Fin 5) : Fin 625 :=
  ⟨t.val * 5 + mm.val, by have h := t.isLt; have hN : cfg0.N = 125 := N_0; omega⟩

/-- Window 0's block at point `t`, read off ANY array of its shape, is the array's slab of five nodes-in-group. -/
theorem read0 (A : Vec Ideal S4x8x625x32x16 .f32) (t : Fin cfg0.N) (i : Fin 4) (b : Fin 8) (mm : Fin 5) (d : Fin 32)
    (cc : Fin 16) :
    ((((cfg0.win 0).blk t).view.read (Elt Ideal) A : Vec Ideal S4x8x5x32x16 .f32) (ix5 i b mm d cc) : EReal)
      = (A (ix5 i b (shifted t mm) d cc) : EReal) := by
  obtain ⟨⟨e0, e1, e2, e3, e4⟩, -, -⟩ := idx_facts t
  rw [View.read_apply]
  show A _ = A _
  refine congrArg A (funext fun a => Fin.ext ?_)
  match a with
  | ⟨0, _⟩ => show win0_0.index t (0 : Fin 5) * 4 + 1 * i.val = i.val; rw [e0]; omega
  | ⟨1, _⟩ => show win0_0.index t (1 : Fin 5) * 8 + 1 * b.val = b.val; rw [e1]; omega
  | ⟨2, _⟩ => show win0_0.index t (2 : Fin 5) * 5 + 1 * mm.val = t.val * 5 + mm.val; rw [e2]; omega
  | ⟨3, _⟩ => show win0_0.index t (3 : Fin 5) * 32 + 1 * d.val = d.val; rw [e3]; omega
  | ⟨4, _⟩ => show win0_0.index t (4 : Fin 5) * 16 + 1 * cc.val = cc.val; rw [e4]; omega

/-- Window 1's block at point `t`, read off ANY array of its shape, is the array's slab of five nodes-in-group. -/
theorem read1 (A : Vec Ideal S4x16x625x32x16 .f32) (t : Fin cfg0.N) (i : Fin 4) (k : Fin 16) (mm : Fin 5) (d : Fin 32)
    (cc : Fin 16) :
    ((((cfg0.win 1).blk t).view.read (Elt Ideal) A : Vec Ideal S4x16x5x32x16 .f32) (ix5 i k mm d cc) : EReal)
      = (A (ix5 i k (shifted t mm) d cc) : EReal) := by
  obtain ⟨-, ⟨e0, e1, e2, e3, e4⟩, -⟩ := idx_facts t
  rw [View.read_apply]
  show A _ = A _
  refine congrArg A (funext fun a => Fin.ext ?_)
  match a with
  | ⟨0, _⟩ => show win0_1.index t (0 : Fin 5) * 4 + 1 * i.val = i.val; rw [e0]; omega
  | ⟨1, _⟩ => show win0_1.index t (1 : Fin 5) * 16 + 1 * k.val = k.val; rw [e1]; omega
  | ⟨2, _⟩ => show win0_1.index t (2 : Fin 5) * 5 + 1 * mm.val = t.val * 5 + mm.val; rw [e2]; omega
  | ⟨3, _⟩ => show win0_1.index t (3 : Fin 5) * 32 + 1 * d.val = d.val; rw [e3]; omega
  | ⟨4, _⟩ => show win0_1.index t (4 : Fin 5) * 16 + 1 * cc.val = cc.val; rw [e4]; omega

/-- The gathered array's block at point `t` is its slab of five nodes-in-group. -/
theorem xblk_apply (c : Dev nD) (t : Fin cfg0.N) (i : Fin 4) (b : Fin 8) (mm : Fin 5) (d : Fin 32) (cc : Fin 16) :
    ((iblk m c 0 t : Vec Ideal S4x8x5x32x16 .f32) (ix5 i b mm d cc) : EReal)
      = (xgArr m c (ix5 i b (shifted t mm) d cc) : EReal) := by
  unfold iblk xgArr
  generalize V m c (Pipeline.arrRef spec0 0) = A
  exact read0 A t i b mm d cc

/-- The reshaped weights' block at point `t` is its slab of five nodes-in-group. -/
theorem wblk_apply (c : Dev nD) (t : Fin cfg0.N) (i : Fin 4) (k : Fin 16) (mm : Fin 5) (d : Fin 32) (cc : Fin 16) :
    ((iblk m c 1 t : Vec Ideal S4x16x5x32x16 .f32) (ix5 i k mm d cc) : EReal)
      = (w2Arr m c (ix5 i k (shifted t mm) d cc) : EReal) := by
  unfold iblk w2Arr
  generalize V m c (Pipeline.arrRef spec0 1) = A
  exact read1 A t i k mm d cc

/-- A channel's window sum over point `t`'s blocks is the whole arrays' at the shifted node-in-group. -/
theorem blockChan_eq (c : Dev nD) (t : Fin cfg0.N) (b : Fin 8) (mm : Fin 5) (k : Fin 16) (cc : Fin 16) (i : Fin 4) :
    blockChan (iblk m c 0 t) (iblk m c 1 t) b mm k cc i
      = arrChan (xgArr m c) (w2Arr m c) b (shifted t mm) k cc i := by
  unfold blockChan arrChan
  refine Finset.sum_congr rfl fun d _ => ?_
  rw [xblk_apply m c t i b mm d cc, wblk_apply m c t i k mm d cc]

/-- WHAT POINT `t` WRITES BACK is block `t` of `out3` of the two arrays the region finds. -/
theorem flushed_eq (c : Dev nD) (t : Fin cfg0.N) :
    (dats m 0 c).flushed 2 t = ((cfg0.win 2).blk t).view.read (Elt Ideal) (out3 (xgArr m c) (w2Arr m c)) := by
  obtain ⟨-, -, ⟨f0, f1, f2, f3⟩⟩ := idx_facts t
  show (cfg0.win 2).cut (grid0.coords t) ((dats m 0 c).after 2 t) = _
  rw [after0_2]
  funext j
  obtain ⟨b, mm, k, cc, rfl⟩ : ∃ (b : Fin 8) (mm : Fin 5) (k : Fin 16) (cc : Fin 16), j = ix4 b mm k cc :=
    ⟨j 0, j 1, j 2, j 3, eq_ix4 j⟩
  show (out0_2 (F := Ideal) (iblk m c 0 t) (iblk m c 1 t) (ix4 b mm k cc) : EReal)
    = out3 (xgArr m c) (w2Arr m c) (((cfg0.win 2).blk t).view.emb (ix4 b mm k cc))
  refine (out_apply (iblk m c 0 t) (iblk m c 1 t) b mm k cc).trans ?_
  have hemb : ((cfg0.win 2).blk t).view.emb (ix4 b mm k cc) = ix4 b (shifted t mm) k cc := by
    funext a
    apply Fin.ext
    match a with
    | ⟨0, _⟩ => show win0_2.index t (0 : Fin 4) * 8 + 1 * b.val = b.val; rw [f0]; omega
    | ⟨1, _⟩ => show win0_2.index t (1 : Fin 4) * 5 + 1 * mm.val = t.val * 5 + mm.val; rw [f1]; omega
    | ⟨2, _⟩ => show win0_2.index t (2 : Fin 4) * 16 + 1 * k.val = k.val; rw [f2]; omega
    | ⟨3, _⟩ => show win0_2.index t (3 : Fin 4) * 16 + 1 * cc.val = cc.val; rw [f3]; omega
  rw [hemb, out3_apply]
  unfold out3c
  rw [blockChan_eq m c t b mm k cc 0, blockChan_eq m c t b mm k cc 1, blockChan_eq m c t b mm k cc 2,
    blockChan_eq m c t b mm k cc 3]

/-- An index of the output array is in point `t`'s block iff each coordinate is in the block's range on its axis. -/
theorem mem_blk (t : Fin cfg0.N) (i : S8x625x16x16.Idx) :
    i ∈ ((cfg0.win 2).blk t).view.set
      ↔ ∀ a : Fin 4, win0_2.index t a * S8x5x16x16.size a ≤ (i a).val
          ∧ (i a).val < win0_2.index t a * S8x5x16x16.size a + S8x5x16x16.size a := by
  show i ∈ ((View.whole main_v6).slice (win0_2.rect t)).set ↔ _
  rw [View.set_slice_whole, Rect.mem_set_unit]
  exact Iff.rfl

/-- Every index of the output array is in the block of the point that holds its node-in-group. -/
theorem cover (i : S8x625x16x16.Idx) :
    ∃ t : Fin cfg0.N, (cfg0.win 2).flush t = true ∧ i ∈ ((cfg0.win 2).blk t).view.set := by
  have h0 : (i 0).val < 8 := (i 0).isLt
  have h1 : (i 1).val < 625 := (i 1).isLt
  have h2 : (i 2).val < 16 := (i 2).isLt
  have h3 : (i 3).val < 16 := (i 3).isLt
  have hN : cfg0.N = 125 := N_0
  let t : Fin cfg0.N := ⟨(i 1).val / 5, by omega⟩
  obtain ⟨-, -, ⟨f0, f1, f2, f3⟩⟩ := idx_facts t
  have ht : t.val = (i 1).val / 5 := rfl
  refine ⟨t, flush0_2 t, ?_⟩
  rw [mem_blk]
  intro a
  match a with
  | ⟨0, _⟩ => show win0_2.index t (0 : Fin 4) * 8 ≤ (i 0).val ∧ (i 0).val < win0_2.index t (0 : Fin 4) * 8 + 8; rw [f0]; omega
  | ⟨1, _⟩ => show win0_2.index t (1 : Fin 4) * 5 ≤ (i 1).val ∧ (i 1).val < win0_2.index t (1 : Fin 4) * 5 + 5; rw [f1, ht]; omega
  | ⟨2, _⟩ => show win0_2.index t (2 : Fin 4) * 16 ≤ (i 2).val ∧ (i 2).val < win0_2.index t (2 : Fin 4) * 16 + 16; rw [f2]; omega
  | ⟨3, _⟩ => show win0_2.index t (3 : Fin 4) * 16 ≤ (i 3).val ∧ (i 3).val < win0_2.index t (3 : Fin 4) * 16 + 16; rw [f3]; omega

/-- THE OUTPUT ARRAY after the region is `out3` of the two arrays the region finds. -/
theorem final (c : Dev nD) : (dats m 0 c).arrAt 2 cfg0.N = out3 (xgArr m c) (w2Arr m c) :=
  (dats m 0 c).arrAt_eq_of_cover 2 (out3 (xgArr m c) (w2Arr m c)) (fun t _ => flushed_eq m c t) cover

end Cert.KernelIdeal.Blocks

end
-- ==== Proof.KValue.lean ====
/-
  The kernel program's result is the specification's function of the argument arrays.

  After the region the host swaps the node-in-group and node-group axes of its output `[8, 625, 16, 16]` and flattens the
  pair `(node group k, node-in-group mn)` into the node `n = 625 k + mn`; so entry `(b, n, cc)` of the result is the
  region's output at `(b, n mod 625, n / 625, cc)`. There the region's output is the four per-channel window sums of
  weight times gathered entry; the gathered entry is the padded `x` at the node the neighbour word at flat position
  `512 (n mod 625) + 16 d + cc` selects, and the weight sits at edge row `32 (625 (n / 625) + n mod 625) + d = 32 n + d`.
  The product commutes on the extended reals, so each window sum is the specification's.
-/
import proofs.«417479_j13357348290890_2_alg».proof.Proof.Gen.KernelIdeal.Frame
import proofs.«417479_j13357348290890_2_alg».proof.Proof.Spec
import proofs.«417479_j13357348290890_2_alg».proof.Proof.KPrefix
import proofs.«417479_j13357348290890_2_alg».proof.Proof.KBlocks
import Idealize.ShloMosaic.Lib.Pipeline.Value
import Idealize.ShloMosaic.Lib.ValueIdx
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.KernelIdeal.Blocks Cert.KernelIdeal.Prefix Cert.GnnSpec

variable (m : (ℓ : Loc nD τ sig) → Buf (Elt Ideal) ℓ) (ρ : Dev nD → PrngReg)

/-- Node `n`'s place inside its group of 625. -/
def inGroup (n : Fin 10000) : Fin 625 := ⟨n.val % 625, Nat.mod_lt _ (by decide)⟩
/-- Node `n`'s group. -/
def group (n : Fin 10000) : Fin 16 := ⟨n.val / 625, by have := n.isLt; omega⟩

/-- The swap of the two middle axes followed by the flattening, read at `(b, n, cc)`, for ANY array `Y`. -/
theorem tail_read (Y : Vec Ideal S8x625x16x16 .f32) (b : Fin 8) (n : Fin 10000) (cc : Fin 16) :
    ((shapeCast S8x10000x16 (transpose S8x16x625x16 [0, 2, 1, 3] Y transposes_S8x625x16x16_S8x16x625x16_0_2_1_3)
        shapeCasts_S8x16x625x16_S8x10000x16 : Vec Ideal S8x10000x16 .f32) (ix3 b n cc) : EReal)
      = (Y (ix4 b (inGroup n) (group n) cc) : EReal) := by
  have hn := n.isLt
  refine (shapeCast_apply _ shapeCasts_S8x16x625x16_S8x10000x16 (ix3 b n cc) (ix4 b (group n) (inGroup n) cc) ?_).trans ?_
  · rewrite [Shape.rowMajor_val_four, Shape.rowMajor_val_three]
    show ((b.val * 16 + n.val / 625) * 625 + n.val % 625) * 16 + cc.val = (b.val * 10000 + n.val) * 16 + cc.val
    omega
  · exact transpose_apply [0, 2, 1, 3] Y transposes_S8x625x16x16_S8x16x625x16_0_2_1_3 (ix4 b (group n) (inGroup n) cc)
      (ix4 b (inGroup n) (group n) cc) (fun a => by
        match a with
        | ⟨0, _⟩ => rfl
        | ⟨1, _⟩ => rfl
        | ⟨2, _⟩ => rfl
        | ⟨3, _⟩ => rfl)

/-- What the lines after the region leave in the result buffer: the region's output, axes swapped and flattened. -/
theorem tail_eq (c : Dev nD) :
    (Pipeline.afterTail₀ cfgs (dats m) 0 (V0 m) [hostOps1] c main_v8 : Vec Ideal S8x10000x16 .f32)
      = shapeCast S8x10000x16 (transpose S8x16x625x16 [0, 2, 1, 3] (out3 (xgArr m c) (w2Arr m c))
          transposes_S8x625x16x16_S8x16x625x16_0_2_1_3) shapeCasts_S8x16x625x16_S8x10000x16 := by
  have hw : Pipeline.withArrays (cfgs 0).spec c (V0 m c) (fun w => (dats m 0 c).arrAt w (cfgs 0).N)
      (Proc.devRef .tc main_v6) = out3 (xgArr m c) (w2Arr m c) :=
    (Pipeline.withArrays_arr spec0 launch0.win.arr_inj c _ _ 2).trans (final m c)
  unfold Pipeline.afterTail₀
  show StableHlo.after hostOps1 _ (Proc.devRef .tc main_v8) = _
  after_results
  rw [hw]
  rfl

/-- The edge row of `(group, place in group, neighbour)` is `32 n + d`. -/
theorem rowPos_eq (n : Fin 10000) (d : Fin 32) : rowPos (group n) (inGroup n) d = wPos n d := by
  apply Fin.ext
  show (n.val / 625 * 625 + n.val % 625) * 32 + d.val = n.val * 32 + d.val
  omega

/-- The flat neighbour position of `(place in group, neighbour, channel)` is the tiled table's. -/
theorem flatPos_eq (n : Fin 10000) (d : Fin 32) (cc : Fin 16) : flatPos (inGroup n) d cc = edgePos n d cc := rfl

/-- The gathered array, named by its window, is the buffer the host wrote. -/
theorem xgArr_apply (c : Dev nD) (j : S4x8x625x32x16.Idx) :
    (xgArr m c j : EReal) = ((V m c main_v4 : S4x8x625x32x16.Idx → EReal) j) := rfl

/-- The reshaped weights, named by their window, are the buffer the host wrote. -/
theorem w2Arr_apply (c : Dev nD) (j : S4x16x625x32x16.Idx) :
    (w2Arr m c j : EReal) = ((V m c main_v5 : S4x16x625x32x16.Idx → EReal) j) := rfl

/-- The gathered array at `(i, b, place in group, d, cc)` of node `n`, when every neighbour word is in range. -/
theorem xg_at (c : Dev nD) (hr : InRange (m ((c.tc : Thread nD τ).loc main_arg1)))
    (i : Fin 4) (b : Fin 8) (n : Fin 10000) (d : Fin 32) (cc : Fin 16) :
    (xgArr m c (ix5 i b (inGroup n) d cc) : EReal)
      = xpad (m ((c.tc : Thread nD τ).loc main_arg0)) b
          (node (m ((c.tc : Thread nD τ).loc main_arg1) (ix1 (edgePos n d cc)))) i :=
  (xgArr_apply m c _).trans ((xg_apply m c hr i b (inGroup n) d cc).trans (by rw [flatPos_eq]))

/-- The reshaped weights at `(i, group, place in group, d, cc)` of node `n`. -/
theorem w2_at (c : Dev nD) (i : Fin 4) (n : Fin 10000) (d : Fin 32) (cc : Fin 16) :
    (w2Arr m c (ix5 i (group n) (inGroup n) d cc) : EReal)
      = (m ((c.tc : Thread nD τ).loc main_arg2) : S4x320000x16.Idx → EReal) (ix3 i (wPos n d) cc) :=
  (w2Arr_apply m c _).trans ((w2_apply m c i (group n) (inGroup n) d cc).trans (by rw [rowPos_eq]))

/-- One channel's window sum over the arrays the region finds is the specification's, when every neighbour word is in
    range. -/
theorem arrChan_eq (c : Dev nD) (hr : InRange (m ((c.tc : Thread nD τ).loc main_arg1)))
    (b : Fin 8) (n : Fin 10000) (cc : Fin 16) (i : Fin 4) :
    arrChan (xgArr m c) (w2Arr m c) b (inGroup n) (group n) cc i
      = chan (m ((c.tc : Thread nD τ).loc main_arg0)) (m ((c.tc : Thread nD τ).loc main_arg1))
          (m ((c.tc : Thread nD τ).loc main_arg2)) b n cc i := by
  unfold arrChan chan term
  refine Finset.sum_congr rfl fun d _ => ?_
  rw [xg_at m c hr i b n d cc, w2_at m c i n d cc]
  exact mul_comm _ _

/-- THE RESULT BUFFER after the kernel program is `G` of the argument arrays. -/
theorem kernel_value (c : Dev nD) (hr : InRange (m ((c.tc : Thread nD τ).loc main_arg1))) :
    (Pipeline.afterTail₀ cfgs (dats m) 0 (V0 m) [hostOps1] c main_v8 : Vec Ideal S8x10000x16 .f32)
      = G (m ((c.tc : Thread nD τ).loc main_arg0)) (m ((c.tc : Thread nD τ).loc main_arg1))
          (m ((c.tc : Thread nD τ).loc main_arg2)) := by
  rw [tail_eq]
  funext j
  obtain ⟨b, n, cc, rfl⟩ : ∃ (b : Fin 8) (n : Fin 10000) (cc : Fin 16), j = ix3 b n cc := ⟨j 0, j 1, j 2, eq_ix3 j⟩
  refine (tail_read _ b n cc).trans ?_
  rw [out3_apply, G_apply]
  unfold out3c Gc
  rw [arrChan_eq m c hr b n cc 0, arrChan_eq m c hr b n cc 1, arrChan_eq m c hr b n cc 2, arrChan_eq m c hr b n cc 3]

/-- THE KERNEL PROGRAM'S RUN, read: every weakly fair execution terminates with the result buffer at `G` of the
    argument arrays and the arguments unchanged, when every neighbour word is in range. -/
theorem kernel_run (hr : ∀ c : Dev nD, InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v8)
        = G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 (by decide) (by decide))).trans (kernel_value m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  The certificate: a graph layer's kernel against its reference, equal over the extended reals.

  Both programs take `x : [8, 10000, 4]` (batch, node, input channel), a flat array of 320000 neighbour words (32 per
  node) and weights `[4, 320000, 16]` (input channel, edge, output channel), and return `[8, 10000, 16]`. The reference
  pads `x` with a zero row, tiles the neighbour words sixteen times into a table with one row per edge and one column per
  output channel, and for each input channel gathers the padded column at the table, multiplies by that channel's
  weights, sums each node's window of 32 edges and accumulates. The kernel gathers once at the flat words, and a grid of
  125 points multiplies and sums blocks of five nodes-in-group for all sixteen node groups at once; the host then puts the
  node axis back together. Row `32 n + d`, column `c` of the tiled table is flat word `512 (n mod 625) + 16 d + c`, which
  is why the kernel's single gather serves every node group. Both results are the function `G` of Proof/Spec.lean.

  The precondition keeps every neighbour word in `[-10001, 10000]`, the range in which indexing the padded node axis is in
  bounds (a negative word counts back from the end). Outside it the two gathers differ (the reference clamps, the kernel
  fills), inside it the kernel's range test always passes. The only law used between the two sides is commutativity of
  the product on the extended reals, so the finiteness of the float inputs is never opened.

  The three frames are the generated ones (the reference's is its generated run with the result dropped); the kernel's
  idealization rewrote nothing, so `preserves` is `True`.
-/
import proofs.«417479_j13357348290890_2_alg».proof.Defs
import proofs.«417479_j13357348290890_2_alg».proof.Proof.Gen.Kernel
import proofs.«417479_j13357348290890_2_alg».proof.Proof.Gen.Kernel.Skeleton
import proofs.«417479_j13357348290890_2_alg».proof.Proof.Gen.Kernel.Launch
import proofs.«417479_j13357348290890_2_alg».proof.Proof.Gen.Kernel.Points
import proofs.«417479_j13357348290890_2_alg».proof.Proof.Gen.Kernel.Frame
import proofs.«417479_j13357348290890_2_alg».proof.Proof.Gen.KernelIdeal
import proofs.«417479_j13357348290890_2_alg».proof.Proof.Gen.KernelIdeal.Skeleton
import proofs.«417479_j13357348290890_2_alg».proof.Proof.Gen.KernelIdeal.Launch
import proofs.«417479_j13357348290890_2_alg».proof.Proof.Gen.KernelIdeal.Points
import proofs.«417479_j13357348290890_2_alg».proof.Proof.Gen.KernelIdeal.Frame
import proofs.«417479_j13357348290890_2_alg».proof.Proof.Gen.ReferenceIdeal
import proofs.«417479_j13357348290890_2_alg».proof.Proof.Gen.Pre_finite_inputs
import proofs.«417479_j13357348290890_2_alg».proof.Proof.Gen.ReferenceIdeal.Run
import proofs.«417479_j13357348290890_2_alg».proof.Proof.Gen.ReferenceIdeal.Read
import proofs.«417479_j13357348290890_2_alg».proof.Proof.Spec
import proofs.«417479_j13357348290890_2_alg».proof.Proof.PreDecode
import proofs.«417479_j13357348290890_2_alg».proof.Proof.RefValue
import proofs.«417479_j13357348290890_2_alg».proof.Proof.KValue
import Idealize.ShloMosaic.Adequacy
import Idealize.ShloMosaic.Init

noncomputable section

namespace Cert.Proof

open Idealize.ShloMosaic Idealize.ShloMosaic.TcCoe Idealize.SL.Sem Cert.GnnSpec

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition every neighbour word is in range, so the kernel program's result is `G` of its arguments; the
    reference's result is `G` of its arguments always; and the arguments agree. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg1)) :=
    fun c => Cert.PreDecode.inRange_of_fn _ _ _ (hpre c)
  refine ⟨_, Cert.KernelIdeal.KValue.kernel_run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
